-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256x256 : Shape := ⟨4, ![32, 64, 256, 256]⟩
abbrev S_ : Shape := ⟨0, ![]⟩

class Facts : Prop where
  bcast_S_S32x64x256x256 : S_.BroadcastsInDim S32x64x256x256 (![] : Fin 0 → Fin S32x64x256x256.rank)
  reducesTo_S32x64x256x256_S_d0_1_2_3 : S32x64x256x256.ReducesTo [0, 1, 2, 3] S_
  h_S_ : 0 < S_.numel

variable [Facts]

def fn {F : FTy → Type} [FloatOps F] (main_arg0 : FVec F S32x64x256x256 .f32) : IVec S_ 1 :=
  let main_v0 : FVec F S32x64x256x256 .f32 := Host.absf main_arg0
  let main_cst : FVec F S_ .f32 := constant S_ .f32 0x7F800000#32
  let main_v1 : FVec F S32x64x256x256 .f32 := broadcastInDim S32x64x256x256 ![] bcast_S_S32x64x256x256 main_cst
  let main_v2 : IVec S32x64x256x256 1 := cmpf .olt main_v0 main_v1
  let main_c : IVec S_ 1 := constantI S_ 1 1#1
  let main_v3 : IVec S_ 1 := (fun x v => Host.reduce IntOp.andi x v reducesTo_S32x64x256x256_S_d0_1_2_3 h_S_) main_v2 main_c
  main_v3
-- ==== Kernel.lean ====
abbrev S32x64x256x256 : Shape := ⟨4, ![32, 64, 256, 256]⟩
abbrev S1x64x1x1 : Shape := ⟨4, ![1, 64, 1, 1]⟩
abbrev S1x64x128x256 : Shape := ⟨4, ![1, 64, 128, 256]⟩
abbrev S64 : Shape := ⟨1, ![64]⟩
abbrev S_ : Shape := ⟨0, ![]⟩

abbrev nBuf : Space → Nat
  | .hbm => 22
  | .vmem => 12
  | .smem => 0
  | _ => 0

abbrev bufTy : (tb : Table) → Fin (tcTables nBuf tb) → BufTy
  | .hbm, ⟨0, _⟩ => ⟨S32x64x256x256, .f32⟩
  | .hbm, ⟨1, _⟩ => ⟨S1x64x1x1, .f32⟩
  | .hbm, ⟨2, _⟩ => ⟨S1x64x1x1, .f32⟩
  | .hbm, ⟨3, _⟩ => ⟨S_, .f32⟩
  | .hbm, ⟨4, _⟩ => ⟨S1x64x1x1, .f32⟩
  | .hbm, ⟨5, _⟩ => ⟨S1x64x1x1, .f32⟩
  | .hbm, ⟨6, _⟩ => ⟨S_, .f32⟩
  | .hbm, ⟨7, _⟩ => ⟨S1x64x1x1, .f32⟩
  | .hbm, ⟨8, _⟩ => ⟨S1x64x1x1, .f32⟩
  | .hbm, ⟨9, _⟩ => ⟨S1x64x1x1, .f32⟩
  | .hbm, ⟨10, _⟩ => ⟨S1x64x1x1, .f32⟩
  | .hbm, ⟨11, _⟩ => ⟨S_, .f32⟩
  | .hbm, ⟨12, _⟩ => ⟨S1x64x1x1, .f32⟩
  | .hbm, ⟨13, _⟩ => ⟨S1x64x1x1, .f32⟩
  | .hbm, ⟨14, _⟩ => ⟨S_, .f32⟩
  | .hbm, ⟨15, _⟩ => ⟨S1x64x1x1, .f32⟩
  | .hbm, ⟨16, _⟩ => ⟨S1x64x1x1, .f32⟩
  | .hbm, ⟨17, _⟩ => ⟨S_, .f32⟩
  | .hbm, ⟨18, _⟩ => ⟨S1x64x1x1, .f32⟩
  | .hbm, ⟨19, _⟩ => ⟨S1x64x1x1, .f32⟩
  | .hbm, ⟨20, _⟩ => ⟨S1x64x1x1, .f32⟩
  | .hbm, ⟨21, _⟩ => ⟨S32x64x256x256, .f32⟩
  | .local _ .vmem, ⟨0, _⟩ => ⟨S1x64x128x256, .f32⟩
  | .local _ .vmem, ⟨1, _⟩ => ⟨S1x64x128x256, .f32⟩
  | .local _ .vmem, ⟨2, _⟩ => ⟨S1x64x1x1, .f32⟩
  | .local _ .vmem, ⟨3, _⟩ => ⟨S1x64x1x1, .f32⟩
  | .local _ .vmem, ⟨4, _⟩ => ⟨S1x64x1x1, .f32⟩
  | .local _ .vmem, ⟨5, _⟩ => ⟨S1x64x1x1, .f32⟩
  | .local _ .vmem, ⟨6, _⟩ => ⟨S1x64x128x256, .f32⟩
  | .local _ .vmem, ⟨7, _⟩ => ⟨S1x64x128x256, .f32⟩
  | .local _ .vmem, ⟨8, _⟩ => ⟨S1x64x1x1, .f32⟩
  | .local _ .vmem, ⟨9, _⟩ => ⟨S1x64x1x1, .f32⟩
  | .local _ .vmem, ⟨10, _⟩ => ⟨S1x64x128x256, .f32⟩
  | .local _ .vmem, ⟨11, _⟩ => ⟨S1x64x128x256, .f32⟩
  | _, _ => ⟨S32x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg0 : BitVec 32 := BitVec.ofNat 32 (i 0).val
  let c31_i32 : BitVec 32 := 31#32
  let v21 : BitVec 1 := Scalar.cmpi .eq arg0 c31_i32
  let arg1 : BitVec 32 := BitVec.ofNat 32 (i 1).val
  let c1_i32 : BitVec 32 := 1#32
  let v22 : BitVec 1 := Scalar.cmpi .eq arg1 c1_i32
  let v23 : BitVec 1 := Scalar.andi v21 v22
  let v24 : BitVec 32 := Scalar.extui v23
  let c0_i32_22 : BitVec 32 := 0#32
  let v25 : BitVec 1 := Scalar.cmpi .ne v24 c0_i32_22
  v25

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x64x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![32, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x64x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x64x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x64x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x64x1x1_S1x64x1x1_0_0_0_0 : ∀ a, (![0, 0, 0, 0] : Fin 4 → Nat) a + S1x64x1x1.size a ≤ S1x64x1x1.size a
  h_S1x64x1x1 : 0 < S1x64x1x1.numel
  shapeCasts_S1x64x1x1_S1x64x1x1 : S1x64x1x1.ShapeCasts S1x64x1x1
  inb_S1x64x128x256_S1x64x128x256_0_0_0_0 : ∀ a, (![0, 0, 0, 0] : Fin 4 → Nat) a + S1x64x128x256.size a ≤ S1x64x128x256.size a
  h_S1x64x128x256 : 0 < S1x64x128x256.numel
  reduces_S1x64x128x256_S64 : S1x64x128x256.Reduces [0, 2, 3] S64
  shapeCasts_S64_S1x64x1x1 : S64.ShapeCasts S1x64x1x1
  bcast_S_S1x64x1x1 : S_.BroadcastsInDim S1x64x1x1 (![] : Fin 0 → Fin S1x64x1x1.rank)
  broadcasts_S1x64x1x1_S1x64x128x256 : S1x64x1x1.Broadcasts S1x64x128x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x256.size a ≤ S32x64x256x256.size a
  hwx0_0 : ∀ i : grid0.Coords, EltTy.bits .f32 = 32 ∨ (Rect.block (s := S32x64x256x256) S1x64x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64x1x1.size a ≤ S1x64x1x1.size a
  hwx0_1 : ∀ i : grid0.Coords, EltTy.bits .f32 = 32 ∨ (Rect.block (s := S1x64x1x1) S1x64x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x1x1.size a ≤ S1x64x1x1.size a
  hwx0_2 : ∀ i : grid0.Coords, EltTy.bits .f32 = 32 ∨ (Rect.block (s := S1x64x1x1) S1x64x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128x256.size a ≤ S32x64x256x256.size a
  hwx1_0 : ∀ i : grid1.Coords, EltTy.bits .f32 = 32 ∨ (Rect.block (s := S32x64x256x256) S1x64x128x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64x1x1.size a ≤ S1x64x1x1.size a
  hwx1_1 : ∀ i : grid1.Coords, EltTy.bits .f32 = 32 ∨ (Rect.block (s := S1x64x1x1) S1x64x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64x1x1.size a ≤ S1x64x1x1.size a
  hwx1_2 : ∀ i : grid1.Coords, EltTy.bits .f32 = 32 ∨ (Rect.block (s := S1x64x1x1) S1x64x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128x256.size a ≤ S32x64x256x256.size a
  hwx1_3 : ∀ i : grid1.Coords, EltTy.bits .f32 = 32 ∨ (Rect.block (s := S32x64x256x256) S1x64x128x256.size (cc1_transform_3 i) (hinb1_3 i)).WholeWords (EltTy.packing .f32)

variable [Facts₀]

abbrev win0_0 : Pipeline.Window sig grid0 :=
  Pipeline.Window.ofSpec (Memref.whole main_arg0) S1x64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x64x1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x64x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x64x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x64x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x64x128x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x64x256x256 : Shape := ⟨4, ![32, 64, 256, 256]⟩
abbrev S32x256x256x64 : Shape := ⟨4, ![32, 256, 256, 64]⟩
abbrev S2097152x64 : Shape := ⟨2, ![2097152, 64]⟩
abbrev S_ : Shape := ⟨0, ![]⟩
abbrev S64 : Shape := ⟨1, ![64]⟩
abbrev S1x64 : Shape := ⟨2, ![1, 64]⟩
abbrev S1x64x1x1 : Shape := ⟨4, ![1, 64, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x64x256x256, .f32⟩
  | .hbm, ⟨1, _⟩ => ⟨S32x256x256x64, .f32⟩
  | .hbm, ⟨2, _⟩ => ⟨S2097152x64, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S2097152x64, .f32⟩
  | .hbm, ⟨10, _⟩ => ⟨S2097152x64, .f32⟩
  | .hbm, ⟨11, _⟩ => ⟨S2097152x64, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x64x1x1, .f32⟩
  | .hbm, ⟨25, _⟩ => ⟨S32x64x256x256, .f32⟩
  | .hbm, ⟨26, _⟩ => ⟨S32x64x256x256, .f32⟩
  | .hbm, ⟨27, _⟩ => ⟨S1x64x1x1, .f32⟩
  | .hbm, ⟨28, _⟩ => ⟨S32x64x256x256, .f32⟩
  | .hbm, ⟨29, _⟩ => ⟨S32x64x256x256, .f32⟩
  | _, _ => ⟨S32x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  transposes_S32x64x256x256_S32x256x256x64_0_2_3_1 : S32x64x256x256.Transposes [0, 2, 3, 1] S32x256x256x64
  shapeCasts_S32x256x256x64_S2097152x64 : S32x256x256x64.ShapeCasts S2097152x64
  reducesTo_S2097152x64_S64_d0 : S2097152x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S2097152x64_0_1 : S1x64.BroadcastsInDim S2097152x64 (![0, 1] : Fin 2 → Fin S2097152x64.rank)
  shapeCasts_S64_S1x64x1x1 : S64.ShapeCasts S1x64x1x1
  bcast_S1x64x1x1_S32x64x256x256_0_1_2_3 : S1x64x1x1.BroadcastsInDim S32x64x256x256 (![0, 1, 2, 3] : Fin 4 → Fin S32x64x256x256.rank)

variable [Facts₀]

class Facts : Prop extends Facts₀ where

variable [Facts]
-- ==== Proof.KStats.lean ====
/-
  The statistics region (the first kernel call), at the contents `V` it is entered from.

  Its grid has 64 points. At each point the body adds, per channel, the sum of the point's input block to one scratch
  buffer and the sum of the block's squares to another; the first point zeroes both scratch buffers first, the last
  point copies them into the two result windows, which are written back there and nowhere else. Between points the two
  scratch buffers therefore hold the running sums over the blocks so far (`acc`): that is the region's invariant.
-/
import proofs.«111102_j85839216378453_1_alg».proof.Proof.Gen.Kernel.Launch
import proofs.«111102_j85839216378453_1_alg».proof.Proof.Gen.Kernel.Skeleton
import proofs.«111102_j85839216378453_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks and the running sums -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t`, at its literal type. -/
abbrev xblk0 (c : Dev nD) (t : Fin cfg0.N) : Vec F S1x64x128x256 .f32 := iblk0 V c 0 t

/-- What the two scratch buffers hold after the body at position `n`: the running per-channel sums of the blocks
    `0 … n` and of their squares, each started from the zero vector at the first point. -/
def acc (c : Dev nD) : (n : ℕ) → n < cfg0.N → Vec F S1x64x1x1 .f32 × Vec F S1x64x1x1 .f32
  | 0, h => (k0_pay3 (xblk0 V c ⟨0, h⟩) (k0_pay1 (F := F)), k0_pay4 (xblk0 V c ⟨0, h⟩) (k0_pay2 (F := F)))
  | n + 1, h => (k0_pay3 (xblk0 V c ⟨n + 1, h⟩) (acc c n (Nat.lt_of_succ_lt h)).1,
                 k0_pay4 (xblk0 V c ⟨n + 1, h⟩) (acc c n (Nat.lt_of_succ_lt h)).2)

theorem acc_zero (c : Dev nD) (h : 0 < cfg0.N) :
    acc V c 0 h = (k0_pay3 (xblk0 V c ⟨0, h⟩) (k0_pay1 (F := F)), k0_pay4 (xblk0 V c ⟨0, h⟩) (k0_pay2 (F := F))) := rfl

theorem acc_succ (c : Dev nD) (n : ℕ) (h : n + 1 < cfg0.N) :
    acc V c (n + 1) h = (k0_pay3 (xblk0 V c ⟨n + 1, h⟩) (acc V c n (Nat.lt_of_succ_lt h)).1,
                         k0_pay4 (xblk0 V c ⟨n + 1, h⟩) (acc V c n (Nat.lt_of_succ_lt h)).2) := rfl

/-! ## The invariant -/

/-- The two scratch buffers as memrefs. -/
abbrev sc0 : Memref sig .tc .vmem S1x64x1x1 .f32 := Memref.whole cc0_scratch0
abbrev sc1 : Memref sig .tc .vmem S1x64x1x1 .f32 := Memref.whole cc0_scratch1

/-- The other kernel call's staging buffers, which this region never touches: each whole at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's invariant before position `n`: before the first point every scoped buffer no window stages is at
    anything (the launch's); afterwards the two scratch buffers hold the running sums the point before left. -/
def PhiS (c : Dev nD) : (n : ℕ) → n ≤ cfg0.N → sProp 𝕄
  | 0, _ => Pipeline.ΦA spec0 c
  | n + 1, hn => iprop(owns (c : Thread nD τ) sc0 fullShare (acc V c n hn).1 ∗ owns (c : Thread nD τ) sc1 fullShare (acc V c n hn).2
      ∗ others c ∗ (∃ r, prngReg c r))

theorem PhiS_zero (c : Dev nD) (h : 0 ≤ cfg0.N) : PhiS V c 0 h = Pipeline.ΦA spec0 c := rfl

theorem PhiS_succ (c : Dev nD) (n : ℕ) (hn : n < cfg0.N) :
    PhiS V c (n + 1) hn = iprop(owns (c : Thread nD τ) sc0 fullShare (acc V c n hn).1 ∗ owns (c : Thread nD τ) sc1 fullShare (acc V c n hn).2
      ∗ others c ∗ (∃ r, prngReg c r)) := rfl

/-! ## The proof data -/

/-- The region's proof data on core `c`: the arrays as found; after the body the input's buffer at its block and the two
    result windows' at the running sums (consulted only at the last point: elsewhere those windows are idle and handed
    back as found); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (acc V c t.val t.isLt).1
    | ⟨2, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (acc V c t.val t.isLt).1 := by dsimp only [dat0]
theorem after0_2 (c : Dev nD) (t : Fin cfg0.N) : (dat0 V c).after 2 t = (acc V c t.val t.isLt).2 := by dsimp only [dat0]

/-! ## The body's two conditionals -/

/-- The first conditional's test: both grid coordinates are zero. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The second conditional's test: the coordinates are (31, 1). -/
abbrev isLast (i : grid0.Coords) : Prop := k0_cond2 i = 1#1

/-- The first test holds at the first point only, -/
theorem first_iff : ∀ t : Fin cfg0.N, isFirst (grid0.coords t) ↔ t.val = 0 :=
  (by decide +kernel : ∀ t : Fin grid0.N, isFirst (grid0.coords t) ↔ t.val = 0)
/-- the second at the last point only. -/
theorem last_iff : ∀ t : Fin cfg0.N, isLast (grid0.coords t) ↔ t.val = 63 :=
  (by decide +kernel : ∀ t : Fin grid0.N, isLast (grid0.coords t) ↔ t.val = 63)

/-- The input window is live at every point. -/
theorem live0 : ∀ t : Fin cfg0.N, cfg0.idle 0 (grid0.coords t) = false := by decide +kernel
/-- Off the last point the two result windows are idle and not written back; -/
theorem idle1_of : ∀ t : Fin cfg0.N, ¬isLast (grid0.coords t) → cfg0.idle 1 (grid0.coords t) = true := by decide +kernel
theorem idle2_of : ∀ t : Fin cfg0.N, ¬isLast (grid0.coords t) → cfg0.idle 2 (grid0.coords t) = true := by decide +kernel
theorem noFlush1_of : ∀ t : Fin cfg0.N, ¬isLast (grid0.coords t) → (cfg0.win 1).flush t = false := by decide +kernel
theorem noFlush2_of : ∀ t : Fin cfg0.N, ¬isLast (grid0.coords t) → (cfg0.win 2).flush t = false := by decide +kernel
/-- at the last point they are live. -/
theorem live1_of : ∀ t : Fin cfg0.N, isLast (grid0.coords t) → cfg0.idle 1 (grid0.coords t) = false := by decide +kernel
theorem live2_of : ∀ t : Fin cfg0.N, isLast (grid0.coords t) → cfg0.idle 2 (grid0.coords t) = false := by decide +kernel

/-! ## Whole-buffer loads and stores read back -/

/-- The all-zero offsets of a rank-four rectangle, however they are spelt. -/
theorem zeroOff : (![0, 0, 0, 0] : Fin 4 → ℕ) = fun _ => 0 := by
  funext a; fin_cases a <;> rfl

/-- The last of several stores, made through the whole-shape rectangle, is what the buffer reads afterwards. -/
theorem read_store_whole_cons {S : Shape} {sp : Space} (m : Memref sig .tc sp S .f32) (f : m.view.ty.Contents (Elt F))
    {off : Fin S.rank → ℕ} (hz : off = fun _ => 0) (inb : ∀ a, off a + S.size a ≤ S.size a) (w : S.Idx → Elt F .f32)
    (L : List (View.Piece (Elt F) S .f32)) :
    m.view.read (Elt F) (m.view.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

/-- One store through the whole-shape rectangle reads back as the stored vector, whatever the buffer held. -/
theorem read_store_whole {S : Shape} {sp : Space} (m : Memref sig .tc sp S .f32) (f : m.view.ty.Contents (Elt F))
    {off : Fin S.rank → ℕ} (hz : off = fun _ => 0) (inb : ∀ a, off a + S.size a ≤ S.size a) (w : S.Idx → Elt F .f32) :
    m.view.read (Elt F) (m.view.writes (Elt F) f [⟨Rect.unit off S.size inb, w⟩]) = w :=
  read_store_whole_cons m f hz inb w []

/-- A load through the whole-shape rectangle of a whole memref held at `X` reads `X`. -/
theorem load_whole {S : Shape} {sp : Space} (m : Memref sig .tc sp S .f32) (hm : m.IsWhole) (X : S.Idx → Elt F .f32)
    {off : Fin S.rank → ℕ} (hz : off = fun _ => 0) (inb : ∀ a, off a + S.size a ≤ S.size a) :
    View.readAt (Elt F) m.view (Rect.unit off S.size inb).toLoadRect (hm.unread X) = X := by
  rw [View.readAt_eq_ld, hm.read_unread, View.ld_unit_zero hz]

/-! ## The body in its three control cases, on any whole memrefs

In each case the input's memref holds a block `x` and keeps it. Neither conditional taken: the scratch memrefs go from
`a`, `b` to `k0_pay3 x a`, `k0_pay4 x b`, and the result memrefs are not touched. First conditional taken: the scratch
memrefs start at anything, are zeroed, and end at the update of the zero vectors. Second conditional taken: after the
update the scratch memrefs are copied into the result memrefs, which start at anything. -/

/-- Neither conditional taken. -/
theorem run_mid (c : Dev nD) (i : grid0.Coords)
    (arg2 : Memref sig .tc .vmem S1x64x128x256 .f32) (harg2 : arg2.IsWhole)
    (arg3 : Memref sig .tc .vmem S1x64x1x1 .f32) (harg3 : arg3.IsWhole)
    (arg4 : Memref sig .tc .vmem S1x64x1x1 .f32) (harg4 : arg4.IsWhole)
    (arg5 : Memref sig .tc .vmem S1x64x1x1 .f32) (harg5 : arg5.IsWhole)
    (arg6 : Memref sig .tc .vmem S1x64x1x1 .f32) (harg6 : arg6.IsWhole)
    (hc0 : ¬isFirst i) (hc1 : ¬isLast i)
    (x : Vec F S1x64x128x256 .f32) (a b : Vec F S1x64x1x1 .f32) (E : Set ℕ) (K : PUnit → sProp 𝕄) :
    iprop(owns (c : Thread nD τ) arg2 fullShare x ∗ owns (c : Thread nD τ) arg5 fullShare a ∗ owns (c : Thread nD τ) arg6 fullShare b
        ∗ (iprop(owns (c : Thread nD τ) arg2 fullShare x ∗ owns (c : Thread nD τ) arg5 fullShare (k0_pay3 x a)
            ∗ owns (c : Thread nD τ) arg6 fullShare (k0_pay4 x b)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f5, %hf5, H5⟩, ⟨%f6, %hf6, H6⟩, Hk⟩
  obtain rfl := harg2.eq_unread hf0; obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H5]
  · iexists _; isplitr
    swap; · iexact H5
    ipureintro
    rw [read_store_whole arg5 _ zeroOff, load_whole arg2 harg2 x zeroOff, load_whole arg5 harg5 a zeroOff]
  iexists _; isplitr
  swap; · iexact H6
  ipureintro
  rw [read_store_whole arg6 _ zeroOff, load_whole arg2 harg2 x zeroOff, load_whole arg6 harg6 b zeroOff]

/-- The first conditional taken. -/
theorem run_first (c : Dev nD) (i : grid0.Coords)
    (arg2 : Memref sig .tc .vmem S1x64x128x256 .f32) (harg2 : arg2.IsWhole)
    (arg3 : Memref sig .tc .vmem S1x64x1x1 .f32) (harg3 : arg3.IsWhole)
    (arg4 : Memref sig .tc .vmem S1x64x1x1 .f32) (harg4 : arg4.IsWhole)
    (arg5 : Memref sig .tc .vmem S1x64x1x1 .f32) (harg5 : arg5.IsWhole)
    (arg6 : Memref sig .tc .vmem S1x64x1x1 .f32) (harg6 : arg6.IsWhole)
    (hc0 : isFirst i) (hc1 : ¬isLast i)
    (x : Vec F S1x64x128x256 .f32) (E : Set ℕ) (K : PUnit → sProp 𝕄) :
    iprop(owns (c : Thread nD τ) arg2 fullShare x ∗ (∃ d, owns (c : Thread nD τ) arg5 fullShare d) ∗ (∃ d, owns (c : Thread nD τ) arg6 fullShare d)
        ∗ (iprop(owns (c : Thread nD τ) arg2 fullShare x ∗ owns (c : Thread nD τ) arg5 fullShare (k0_pay3 x (k0_pay1 (F := F)))
            ∗ owns (c : Thread nD τ) arg6 fullShare (k0_pay4 x (k0_pay2 (F := F)))) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%d5, %f5, -, H5⟩, ⟨%d6, %f6, -, H6⟩, Hk⟩
  obtain rfl := harg2.eq_unread hf0
  sl_exec (disch := first | exact hc0 | exact hc1)
  sl_step
  iapply Hk
  isplitl [H0]
  · iexists _; isplitr; · ipureintro; exact harg2.read_unread _
    iexact H0
  isplitl [H5]
  · iexists _; isplitr
    swap; · iexact H5
    ipureintro
    rw [read_store_whole_cons arg5 _ zeroOff, load_whole arg2 harg2 x zeroOff]
    sl_unfold_run_names
    rw [View.readCov_unit_zero _ zeroOff]
  iexists _; isplitr
  swap; · iexact H6
  ipureintro
  rw [read_store_whole_cons arg6 _ zeroOff, load_whole arg2 harg2 x zeroOff]
  sl_unfold_run_names
  rw [View.readCov_unit_zero _ zeroOff]

/-- The second conditional taken. -/
theorem run_last (c : Dev nD) (i : grid0.Coords)
    (arg2 : Memref sig .tc .vmem S1x64x128x256 .f32) (harg2 : arg2.IsWhole)
    (arg3 : Memref sig .tc .vmem S1x64x1x1 .f32) (harg3 : arg3.IsWhole)
    (arg4 : Memref sig .tc .vmem S1x64x1x1 .f32) (harg4 : arg4.IsWhole)
    (arg5 : Memref sig .tc .vmem S1x64x1x1 .f32) (harg5 : arg5.IsWhole)
    (arg6 : Memref sig .tc .vmem S1x64x1x1 .f32) (harg6 : arg6.IsWhole)
    (hc0 : ¬isFirst i) (hc1 : isLast i)
    (x : Vec F S1x64x128x256 .f32) (a b : Vec F S1x64x1x1 .f32) (E : Set ℕ) (K : PUnit → sProp 𝕄) :
    iprop(owns (c : Thread nD τ) arg2 fullShare x ∗ owns (c : Thread nD τ) arg5 fullShare a ∗ owns (c : Thread nD τ) arg6 fullShare b
        ∗ (∃ d, owns (c : Thread nD τ) arg3 fullShare d) ∗ (∃ d, owns (c : Thread nD τ) arg4 fullShare d)
        ∗ (iprop(owns (c : Thread nD τ) arg2 fullShare x ∗ owns (c : Thread nD τ) arg5 fullShare (k0_pay3 x a)
            ∗ owns (c : Thread nD τ) arg6 fullShare (k0_pay4 x b)
            ∗ owns (c : Thread nD τ) arg3 fullShare (k0_pay3 x a) ∗ owns (c : Thread nD τ) arg4 fullShare (k0_pay4 x b)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f5, %hf5, H5⟩, ⟨%f6, %hf6, H6⟩, ⟨%d3, %f3, -, H3⟩, ⟨%d4, %f4, -, H4⟩, Hk⟩
  obtain rfl := harg2.eq_unread hf0; obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H5]
  · iexists _; isplitr
    swap; · iexact H5
    ipureintro
    sl_unfold_run_names
    rw [read_store_whole arg5 _ zeroOff, load_whole arg2 harg2 x zeroOff, load_whole arg5 harg5 a zeroOff]
  isplitl [H6]
  · iexists _; isplitr
    swap; · iexact H6
    ipureintro
    sl_unfold_run_names
    rw [read_store_whole arg6 _ zeroOff, load_whole arg2 harg2 x zeroOff, load_whole arg6 harg6 b zeroOff]
  isplitl [H3]
  · iexists _; isplitr
    swap; · iexact H3
    ipureintro
    rw [read_store_whole arg3 _ zeroOff]
    sl_unfold_run_names
    rw [View.readCov_unit_zero _ zeroOff, load_whole arg2 harg2 x zeroOff, load_whole arg5 harg5 a zeroOff]
  iexists _; isplitr
  swap; · iexact H4
  ipureintro
  rw [read_store_whole arg4 _ zeroOff]
  sl_unfold_run_names
  rw [View.readCov_unit_zero _ zeroOff, load_whole arg2 harg2 x zeroOff, load_whole arg6 harg6 b zeroOff]

/-! ## The invariant and the running sums at a point, by its position -/

theorem acc_first (c : Dev nD) (t : Fin cfg0.N) (h : t.val = 0) :
    acc V c t.val t.isLt = (k0_pay3 (xblk0 V c t) (k0_pay1 (F := F)), k0_pay4 (xblk0 V c t) (k0_pay2 (F := F))) := by
  obtain ⟨n, hn⟩ := t
  cases n with
  | zero => rfl
  | succ n => exact absurd h (Nat.succ_ne_zero n)

theorem acc_pos (c : Dev nD) (t : Fin cfg0.N) (h : t.val ≠ 0) (hp : t.val - 1 < cfg0.N) :
    acc V c t.val t.isLt = (k0_pay3 (xblk0 V c t) (acc V c (t.val - 1) hp).1, k0_pay4 (xblk0 V c t) (acc V c (t.val - 1) hp).2) := by
  obtain ⟨n, hn⟩ := t
  cases n with
  | zero => exact absurd rfl h
  | succ n => rfl

theorem PhiS_of_eq_zero (c : Dev nD) (n : ℕ) (h : n ≤ cfg0.N) (hz : n = 0) : PhiS V c n h = Pipeline.ΦA spec0 c := by
  subst hz; rfl

theorem PhiS_of_ne_zero (c : Dev nD) (n : ℕ) (h : n ≤ cfg0.N) (hz : n ≠ 0) (hp : n - 1 < cfg0.N) :
    PhiS V c n h = iprop(owns (c : Thread nD τ) sc0 fullShare (acc V c (n - 1) hp).1 ∗ owns (c : Thread nD τ) sc1 fullShare (acc V c (n - 1) hp).2
      ∗ others c ∗ (∃ r, prngReg c r)) := by
  cases n with
  | zero => exact absurd rfl hz
  | succ n => rfl

/-- The invariant at a point's start, restated at the point's position. -/
theorem Phi_castSucc (c : Dev nD) (t : Fin cfg0.N) :
    (dat0 V c).Φ t.castSucc = PhiS V c t.val (Nat.le_of_lt t.isLt) := by
  dsimp only [dat0]; simp only [Fin.coe_castSucc]

/-- What the launch hands the region, with the two scratch buffers as memrefs owned at some contents and the other
    call's staging buffers gathered. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ others c)
          ∗ (∃ r, prngReg c r)) := by
  unfold Pipeline.ΦA others; rw [scopedRest0_eq]; simp only [sc0, sc1, owns_whole]; rfl

/-! ## The windows' staging memrefs at a point, and the input's block there -/

abbrev ms0 (t : Fin cfg0.N) : Memref sig .tc .vmem S1x64x128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x1x1 .f32 := win0_2.stage (cfg0.slots t 2)
abbrev hs2 (t : Fin cfg0.N) : (ms2 t).IsWhole := hstage0_2 ((cfg0.slots t 2).cast nbuf0_2)

/-- The input's current staging buffer holds the point's block at every point, fetched there or not: the window is an
    input, never idle and never cut, and the body leaves its block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The obligations -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The input's memref holds the point's block. By the point's position one of the three control
    cases applies: at the first point the invariant is the launch's and hands the scratch buffers over at anything; later
    it hands them over at the running sums of the point before. Either way the body leaves them at this point's running
    sums, which is the invariant after the point. Off the last point the result windows are idle and handed back as
    found; at the last point they receive the running sums. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t], after0_0]
  have hN : t.val < 64 := lt_of_lt_of_eq t.isLt (show cfg0.N = 64 from N_0)
  by_cases h0 : t.val = 0
  · have hl : ¬isLast (grid0.coords t) := fun h => by have := (last_iff t).mp h; omega
    rw [Dat.leavesExact_idle (dat0 V c) 1 t (idle1_of t hl) (noFlush1_of t hl),
      Dat.leavesExact_idle (dat0 V c) 2 t (idle2_of t hl) (noFlush2_of t hl)]
    rw [acc_first V c t h0]; dsimp only
    rw [Phi_castSucc V c t, PhiS_of_eq_zero V c _ _ h0, PhiA0_eq]
    iintro ⟨⟨⟨HS0, HS1, Hoth⟩, Hg⟩, Ho, ⟨%d0, H0⟩, H1, H2⟩
    iapply (run_first c (grid0.coords t) (ms0 t) (hs0 t) (ms1 t) (hs1 t) (ms2 t) (hs2 t) sc0 (Memref.isWhole_whole _) sc1 (Memref.isWhole_whole _)
      ((first_iff t).mpr h0) hl (xblk0 V c t) Set.univ _)
    isplitl [H0]; · iexact H0
    isplitl [HS0]; · iexact HS0
    isplitl [HS1]; · iexact HS1
    iintro ⟨H0, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexact H2
  · have hf : ¬isFirst (grid0.coords t) := fun h => h0 ((first_iff t).mp h)
    have hp : t.val - 1 < cfg0.N := Nat.lt_of_le_of_lt (Nat.sub_le _ _) t.isLt
    by_cases h63 : t.val = 63
    · have hl : isLast (grid0.coords t) := (last_iff t).mpr h63
      rw [show (dat0 V c).leavesExact 1 t = owns (c : Thread nD τ) (ms1 t) fullShare ((dat0 V c).after 1 t) from by
        unfold Dat.leavesExact; rw [live1_of t hl], after0_1]
      rw [show (dat0 V c).leavesExact 2 t = owns (c : Thread nD τ) (ms2 t) fullShare ((dat0 V c).after 2 t) from by
        unfold Dat.leavesExact; rw [live2_of t hl], after0_2]
      rw [acc_pos V c t h0 hp]; dsimp only
      rw [Phi_castSucc V c t, PhiS_of_ne_zero V c _ _ h0 hp]
      iintro ⟨⟨HS0, HS1, Hoth, Hg⟩, Ho, ⟨%d0, H0⟩, ⟨%d1, H1⟩, ⟨%d2, H2⟩⟩
      iapply (run_last c (grid0.coords t) (ms0 t) (hs0 t) (ms1 t) (hs1 t) (ms2 t) (hs2 t) sc0 (Memref.isWhole_whole _) sc1 (Memref.isWhole_whole _)
        hf hl (xblk0 V c t) (acc V c (t.val - 1) hp).1 (acc V c (t.val - 1) hp).2 Set.univ _)
      isplitl [H0]; · iexact H0
      isplitl [HS0]; · iexact HS0
      isplitl [HS1]; · iexact HS1
      isplitl [H1]; · iexists _; iexact H1
      isplitl [H2]; · iexists _; iexact H2
      iintro ⟨H0, HS0, HS1, H1, H2⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      iexact H2
    · have hl : ¬isLast (grid0.coords t) := fun h => h63 ((last_iff t).mp h)
      rw [Dat.leavesExact_idle (dat0 V c) 1 t (idle1_of t hl) (noFlush1_of t hl),
        Dat.leavesExact_idle (dat0 V c) 2 t (idle2_of t hl) (noFlush2_of t hl)]
      rw [acc_pos V c t h0 hp]; dsimp only
      rw [Phi_castSucc V c t, PhiS_of_ne_zero V c _ _ h0 hp]
      iintro ⟨⟨HS0, HS1, Hoth, Hg⟩, Ho, ⟨%d0, H0⟩, H1, H2⟩
      iapply (run_mid c (grid0.coords t) (ms0 t) (hs0 t) (ms1 t) (hs1 t) (ms2 t) (hs2 t) sc0 (Memref.isWhole_whole _) sc1 (Memref.isWhole_whole _)
        hf hl (xblk0 V c t) (acc V c (t.val - 1) hp).1 (acc V c (t.val - 1) hp).2 Set.univ _)
      isplitl [H0]; · iexact H0
      isplitl [HS0]; · iexact HS0
      isplitl [HS1]; · iexact HS1
      iintro ⟨H0, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero]

/-- After the last point the invariant gives the launch's back: the running sums' names are forgotten. -/
theorem hout0 (c : Dev nD) : (dat0 V c).Φ (Fin.last cfg0.N) ⊢ (Pipeline.ΦA spec0 c : sProp 𝕄) := by
  have hN : cfg0.N = 64 := N_0
  have hz : (Fin.last cfg0.N).val ≠ 0 := by rw [Fin.val_last]; omega
  have hp : (Fin.last cfg0.N).val - 1 < cfg0.N := by rw [Fin.val_last]; omega
  rw [show (dat0 V c).Φ (Fin.last cfg0.N) = PhiS V c (Fin.last cfg0.N).val (Nat.le_of_lt_succ (Fin.last cfg0.N).isLt) from rfl,
    PhiS_of_ne_zero V c _ _ hz hp, PhiA0_eq]
  iintro ⟨HS0, HS1, Hoth, Hg⟩
  isplitl [HS0 HS1 Hoth]
  · isplitl [HS0]; · iexists _; iexact HS0
    isplitl [HS1]; · iexists _; iexact HS1
    iexact Hoth
  iexact Hg

end Cert.Kernel.Hand

end
-- ==== Proof.KNorm.lean ====
/-
  The normalising region (the second kernel call), at the contents `V` it is entered from.

  Its grid has 64 points; at each the body loads the point's input block and the two per-channel vectors (whole-array
  windows, fetched once), and stores `(x - mean) / std`, the vectors broadcast along the block, into the result
  window's block, which is written back at every point. The body carries nothing from point to point.
-/
import proofs.«111102_j85839216378453_1_alg».proof.Proof.Gen.Kernel.Launch
import proofs.«111102_j85839216378453_1_alg».proof.Proof.Gen.Kernel.Skeleton
import proofs.«111102_j85839216378453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: each staging buffer whole. -/
abbrev rX : Rect S1x64x128x256 := Rect.unit (s := S1x64x128x256) ![0, 0, 0, 0] S1x64x128x256.size inb_S1x64x128x256_S1x64x128x256_0_0_0_0
abbrev rC : Rect S1x64x1x1 := Rect.unit (s := S1x64x1x1) ![0, 0, 0, 0] S1x64x1x1.size inb_S1x64x1x1_S1x64x1x1_0_0_0_0

/-- What the body leaves in the result window's buffer, from the three input blocks: its one store. -/
def out1 (x0 : Vec F S1x64x128x256 .f32) (x1 x2 : Vec F S1x64x1x1 .f32) : Vec F S1x64x128x256 .f32 :=
  View.canon [⟨rX, k1_pay1 (View.ld x0 rX) (View.ld x1 rC) (View.ld x2 rC)⟩]

/-! ## The proof data -/

/-- The region's proof data on core `c`: the arrays as found; after the body each input's buffer at its block and the
    result's at `out1` of the three; the launch's invariant, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-! ## What the body finds in the input windows -/

/-- The input block's window is refetched at every point, so its buffer holds the point's block. -/
theorem found_x (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s
    rw [after1_0]
    unfold Dat.blockOf iblk1
    rw [A_eq1]
  rw [(dat1 V c).before_in_eq_fetched 0 rfl (fun _ => rfl) (fun _ _ _ => rfl) hkeep t d]
  unfold Dat.fetched Dat.blockOf iblk1
  rw [A_eq1]
  rfl

/-- The mean vector's window spans its whole array under a constant index: fetched at the first point only, it still
    holds that one block at every later point, because the body leaves it in place. -/
theorem found_mean (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s
    rw [after1_1]
    unfold Dat.blockOf iblk1
    rw [A_eq1]
  rw [(dat1 V c).before_in_eq_fetched 1 rfl (fun _ => rfl) (fun _ _ _ => rfl) hkeep t d]
  unfold Dat.fetched Dat.blockOf iblk1
  rw [A_eq1]
  rfl

/-- Likewise the deviation vector's window. -/
theorem found_std (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := by
    intro s
    rw [after1_2]
    unfold Dat.blockOf iblk1
    rw [A_eq1]
  rw [(dat1 V c).before_in_eq_fetched 2 rfl (fun _ => rfl) (fun _ _ _ => rfl) hkeep t d]
  unfold Dat.fetched Dat.blockOf iblk1
  rw [A_eq1]
  rfl

/-! ## The body's one store -/

/-- The store's rectangle is the whole result buffer, so it alone covers it. -/
theorem store_spans (p : Vec F S1x64x128x256 .f32) (y : S1x64x128x256.Idx) :
    ∃ pc ∈ ([⟨rX, p⟩] : List (View.Piece (Elt F) S1x64x128x256 .f32)), y ∈ pc.1.set :=
  View.cover_of_tiled [⟨rX, p⟩] S1x64x128x256.size (by rfl) y

set_option maxHeartbeats 1000000 in
/-- The normalising body on four whole buffers: holding a block `x`, a mean vector and a deviation vector in the three
    it reads, and anything in the fourth, it ends with the three unchanged and `out1 x mean std` in the fourth. The
    read of the fourth buffer's old contents is not used by the store. -/
theorem norm_triple (c : Dev nD) (E : Set ℕ) (i : grid1.Coords)
    (aX : Memref sig .tc .vmem S1x64x128x256 .f32) (haX : aX.IsWhole)
    (aMean : Memref sig .tc .vmem S1x64x1x1 .f32) (haMean : aMean.IsWhole)
    (aStd : Memref sig .tc .vmem S1x64x1x1 .f32) (haStd : aStd.IsWhole)
    (aOut : Memref sig .tc .vmem S1x64x128x256 .f32) (haOut : aOut.IsWhole)
    (x : Vec F S1x64x128x256 .f32) (mean std : Vec F S1x64x1x1 .f32) (K : PUnit → sProp 𝕄) :
    iprop(owns (c : Thread nD τ) aX fullShare x ∗ owns (c : Thread nD τ) aMean fullShare mean
        ∗ owns (c : Thread nD τ) aStd fullShare std ∗ (∃ d, owns (c : Thread nD τ) aOut fullShare d)
        ∗ (iprop(owns (c : Thread nD τ) aX fullShare x ∗ owns (c : Thread nD τ) aMean fullShare mean
            ∗ owns (c : Thread nD τ) aStd fullShare std ∗ owns (c : Thread nD τ) aOut fullShare (out1 x mean std)) -∗ K ⟨⟩))
      ⊢ wp frame (wpE (defs₀ (F := F)) Variants.none c none) E (cc1__norm_kernel i aX haX aMean haMean aStd haStd aOut haOut) K := by
  simp only [cc1__norm_kernel_eq_skeleton]; unfold cc1__norm_kernel_skel
  unfold owns
  iintro ⟨⟨%fx, %hx, Hx⟩, ⟨%fm, %hm, Hm⟩, ⟨%fs, %hs, Hs⟩, ⟨%d, %fo, -, Ho⟩, Hk⟩
  subst hx; subst hm; subst hs
  sl_exec
  sl_step
  iapply Hk
  isplitl [Hx]
  · iexists fx; isplitr
    · ipureintro; rfl
    · iexact Hx
  isplitl [Hm]
  · iexists fm; isplitr
    · ipureintro; rfl
    · iexact Hm
  isplitl [Hs]
  · iexists fs; isplitr
    · ipureintro; rfl
    · iexact Hs
  iexists _; isplitr
  rotate_left
  · iexact Ho
  · ipureintro
    exact View.read_writes_eq_canon _ _ _ (store_spans _)

/-! ## The body at a point -/

/-- What the pipeline hands the body at point `t`: the invariant, the core's debt, and the four current buffers, -/
def handed (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it takes back. -/
def returned (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At every point the three input buffers hold their blocks, so the body's triple applies at those blocks; the
    invariant and the debt are the same before and after, and pass through untouched. -/
theorem body_at (c : Dev nD) (t : Fin cfg1.N) :
    handed V c t ⊢ wp frame (wpE (defs₀ (F := F)) Variants.none c none) Set.univ (bodyAt1 t) (fun _ => returned V c t) := by
  unfold handed returned bodyAt1
  simp only [found_x, found_mean, found_std]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Hdebt, ⟨%d0, Hx⟩, ⟨%d1, Hm⟩, ⟨%d2, Hs⟩, ⟨%d3, Ho⟩⟩
  iapply (norm_triple c Set.univ _ _ _ _ _ _ _ _ _ (iblk1 V c 0 t) (iblk1 V c 1 t) (iblk1 V c 2 t) _)
  isplitl [Hx]; · iexact Hx
  isplitl [Hm]; · iexact Hm
  isplitl [Hs]; · iexact Hs
  isplitl [Ho]; · iexists _; iexact Ho
  iintro ⟨Hx, Hm, Hs, Ho⟩
  isplitl [HΦ]; · iexact HΦ
  isplitl [Hdebt]; · iexact Hdebt
  isplitl [Hx]; · iexact Hx
  isplitl [Hm]; · iexact Hm
  isplitl [Hs]; · iexact Hs
  iexact Ho

/-! ## The obligation -/

/-- The body obligation at every point. -/
theorem body_obligation1 (c : Dev nD) : BodyObligation (dat1 (F := F) V c) (defs₀ (F := F)) Variants.none () Set.univ := fun t => by
  rw [bigSep_W1, bigSep_W1]
  exact body_at V c t

end Cert.Kernel.Hand

end
-- ==== Proof.KRun.lean ====
/-
  The run of the kernel program: @main is the statistics region, eighteen host operations (mean, variance, clamp, root),
  and the normalising region. The contents of the TensorCore's unscoped buffers at the four boundaries are a fold from
  the launch memory: a region leaves its windows' arrays at what its write-backs make of them and every other buffer as
  it found it; the host stretch applies its operations. Every weakly fair execution terminates with each unscoped buffer
  at the last boundary's contents; the input array is never written, so it ends as launched.
-/
import proofs.«111102_j85839216378453_1_alg».proof.Proof.KStats
import proofs.«111102_j85839216378453_1_alg».proof.Proof.KNorm

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- At launch. -/
abbrev W0 : Dev nD → Valuation τ sig (Elt F) := fun c b => (s₀ m ρ).mem ((c : Dev nD), b)
/-- The same read at the TensorCore's references: what the statistics region is entered from. -/
abbrev V0 : (c : Dev nD) → (b : Ref sig .tc) → Buf (Elt F) ((c : Thread nD τ).loc b) := fun c b => W0 m ρ c b

/-- After the statistics region: its three arrays at what the pipeline leaves, the rest as entered. -/
def W1 (c : Dev nD) : Valuation τ sig (Elt F) :=
  Pipeline.withArrays spec0 c (W0 m ρ c) fun w => (dat0 (V0 m ρ) c).arrAt w cfg0.N

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w

theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev V1 : (c : Dev nD) → (b : Ref sig .tc) → Buf (Elt F) ((c : Thread nD τ).loc b) := fun c b => W1 m ρ c b

theorem exit0_arr (c : Dev nD) (w : Fin cfg0.W) : (dat0 (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch: what the normalising region is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the normalising region: its four arrays at what the pipeline leaves, the rest as entered. -/
def W3 (c : Dev nD) : Valuation τ sig (Elt F) :=
  Pipeline.withArrays spec1 c (W2 m ρ c) fun w => (dat1 (V2 m ρ) c).arrAt w cfg1.N

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w

theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b

theorem exit1_arr (c : Dev nD) (w : Fin cfg1.W) : (dat1 (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation allocates a buffer. -/
theorem host_fresh : (hostOps1 : List (HloOp τ sig (Elt F))).Forall fun op => op.fresh = ∅ := by
  simp only [List.Forall]; repeat' constructor

/-- No host operation writes the input array: each writes its own result only. -/
theorem W2_main_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (by decide)))

/-- The input array is an input window of both regions and no host operation's result: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) :=
        (W3_arr m ρ c 0).trans (((dat1 (V2 m ρ) c).arrAt_in 0 rfl _).trans (A_eq1 (V2 m ρ) c 0))
    _ = W1 m ρ c (Proc.devRef .tc main_arg0) := W2_main_arg0 m ρ c
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

/-- The result array is the normalising region's output window. -/
theorem W3_main_v14 (c : Dev nD) : W3 m ρ c (Proc.devRef .tc main_v14) = (dat1 (V2 m ρ) c).arrAt 3 cfg1.N :=
  W3_arr m ρ c 3

/-! ## The proof data family and the thread state -/

abbrev adm : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

/-- The host stretch as a segment from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp host_fresh) op h) (W1 m ρ) R

/-! ## The regions as segments -/

set_option backward.isDefEq.respectTransparency.types false in
/-- The statistics region over the thread state: entered from every unscoped buffer at `W0`, left at `W1`. Its arrays are
    split out of the unscoped buffers and put back at the exit contents; the generator register and the scoped rest
    go into the invariant (`hin0`) and come back out of it (`hout0`); nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V0 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ (Pipeline.ΦA spec0 c : sProp 𝕄) := hout0 (V0 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state: entered from every unscoped buffer at `W2`, left at `W3`; its invariant
    is the launch's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .host (hseg1 m ρ), .region (reg1 m ρ) ]

theorem main_run (c : Dev nD) : main (F := F) c = Pipeline.Seg.run (segs m ρ) :=
  main_segs adm (pdats m ρ) () 𝒱₀ L lv (hseg1 m ρ) (reg0 m ρ) (reg1 m ρ) rfl c

set_option backward.isDefEq.respectTransparency.types false in
/-- THE RUN. From any memory with zero counters every weakly fair execution of @main terminates, nothing faulting, and
    the final state holds every unscoped TensorCore buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run m ρ)

end Cert.Kernel.Hand

end
-- ==== Proof.Stats.lean ====
/-
  The statistics region (the first kernel call), at the contents `V` it is entered from.

  Its grid has 64 points. At each point the body adds, per channel, the sum of the point's input block to one scratch
  buffer and the sum of the block's squares to another; the first point zeroes both scratch buffers first, the last
  point copies them into the two result windows, which are written back there and nowhere else. Between points the two
  scratch buffers therefore hold the running sums over the blocks so far (`acc`): that is the region's invariant.
-/
import proofs.«111102_j85839216378453_1_alg».proof.Proof.Gen.KernelIdeal.Launch
import proofs.«111102_j85839216378453_1_alg».proof.Proof.Gen.KernelIdeal.Skeleton
import proofs.«111102_j85839216378453_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks and the running sums -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input block at point `t`, at its literal type. -/
abbrev xblk0 (c : Dev nD) (t : Fin cfg0.N) : Vec F S1x64x128x256 .f32 := iblk0 V c 0 t

/-- What the two scratch buffers hold after the body at position `n`: the running per-channel sums of the blocks
    `0 … n` and of their squares, each started from the zero vector at the first point. -/
def acc (c : Dev nD) : (n : ℕ) → n < cfg0.N → Vec F S1x64x1x1 .f32 × Vec F S1x64x1x1 .f32
  | 0, h => (k0_pay3 (xblk0 V c ⟨0, h⟩) (k0_pay1 (F := F)), k0_pay4 (xblk0 V c ⟨0, h⟩) (k0_pay2 (F := F)))
  | n + 1, h => (k0_pay3 (xblk0 V c ⟨n + 1, h⟩) (acc c n (Nat.lt_of_succ_lt h)).1,
                 k0_pay4 (xblk0 V c ⟨n + 1, h⟩) (acc c n (Nat.lt_of_succ_lt h)).2)

theorem acc_zero (c : Dev nD) (h : 0 < cfg0.N) :
    acc V c 0 h = (k0_pay3 (xblk0 V c ⟨0, h⟩) (k0_pay1 (F := F)), k0_pay4 (xblk0 V c ⟨0, h⟩) (k0_pay2 (F := F))) := rfl

theorem acc_succ (c : Dev nD) (n : ℕ) (h : n + 1 < cfg0.N) :
    acc V c (n + 1) h = (k0_pay3 (xblk0 V c ⟨n + 1, h⟩) (acc V c n (Nat.lt_of_succ_lt h)).1,
                         k0_pay4 (xblk0 V c ⟨n + 1, h⟩) (acc V c n (Nat.lt_of_succ_lt h)).2) := rfl

/-! ## The invariant -/

/-- The two scratch buffers as memrefs. -/
abbrev sc0 : Memref sig .tc .vmem S1x64x1x1 .f32 := Memref.whole cc0_scratch0
abbrev sc1 : Memref sig .tc .vmem S1x64x1x1 .f32 := Memref.whole cc0_scratch1

/-- The other kernel call's staging buffers, which this region never touches: each whole at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's invariant before position `n`: before the first point every scoped buffer no window stages is at
    anything (the launch's); afterwards the two scratch buffers hold the running sums the point before left. -/
def PhiS (c : Dev nD) : (n : ℕ) → n ≤ cfg0.N → sProp 𝕄
  | 0, _ => Pipeline.ΦA spec0 c
  | n + 1, hn => iprop(owns (c : Thread nD τ) sc0 fullShare (acc V c n hn).1 ∗ owns (c : Thread nD τ) sc1 fullShare (acc V c n hn).2
      ∗ others c ∗ (∃ r, prngReg c r))

theorem PhiS_zero (c : Dev nD) (h : 0 ≤ cfg0.N) : PhiS V c 0 h = Pipeline.ΦA spec0 c := rfl

theorem PhiS_succ (c : Dev nD) (n : ℕ) (hn : n < cfg0.N) :
    PhiS V c (n + 1) hn = iprop(owns (c : Thread nD τ) sc0 fullShare (acc V c n hn).1 ∗ owns (c : Thread nD τ) sc1 fullShare (acc V c n hn).2
      ∗ others c ∗ (∃ r, prngReg c r)) := rfl

/-! ## The proof data -/

/-- The region's proof data on core `c`: the arrays as found; after the body the input's buffer at its block and the two
    result windows' at the running sums (consulted only at the last point: elsewhere those windows are idle and handed
    back as found); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (acc V c t.val t.isLt).1
    | ⟨2, _⟩ => (acc V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (acc V c t.val t.isLt).1 := by dsimp only [dat0]
theorem after0_2 (c : Dev nD) (t : Fin cfg0.N) : (dat0 V c).after 2 t = (acc V c t.val t.isLt).2 := by dsimp only [dat0]

/-! ## The body's two conditionals -/

/-- The first conditional's test: both grid coordinates are zero. -/
abbrev isFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The second conditional's test: the coordinates are (31, 1). -/
abbrev isLast (i : grid0.Coords) : Prop := k0_cond2 i = 1#1

/-- The first test holds at the first point only, -/
theorem first_iff : ∀ t : Fin cfg0.N, isFirst (grid0.coords t) ↔ t.val = 0 :=
  (by decide +kernel : ∀ t : Fin grid0.N, isFirst (grid0.coords t) ↔ t.val = 0)
/-- the second at the last point only. -/
theorem last_iff : ∀ t : Fin cfg0.N, isLast (grid0.coords t) ↔ t.val = 63 :=
  (by decide +kernel : ∀ t : Fin grid0.N, isLast (grid0.coords t) ↔ t.val = 63)

/-- The input window is live at every point. -/
theorem live0 : ∀ t : Fin cfg0.N, cfg0.idle 0 (grid0.coords t) = false := by decide +kernel
/-- Off the last point the two result windows are idle and not written back; -/
theorem idle1_of : ∀ t : Fin cfg0.N, ¬isLast (grid0.coords t) → cfg0.idle 1 (grid0.coords t) = true := by decide +kernel
theorem idle2_of : ∀ t : Fin cfg0.N, ¬isLast (grid0.coords t) → cfg0.idle 2 (grid0.coords t) = true := by decide +kernel
theorem noFlush1_of : ∀ t : Fin cfg0.N, ¬isLast (grid0.coords t) → (cfg0.win 1).flush t = false := by decide +kernel
theorem noFlush2_of : ∀ t : Fin cfg0.N, ¬isLast (grid0.coords t) → (cfg0.win 2).flush t = false := by decide +kernel
/-- at the last point they are live. -/
theorem live1_of : ∀ t : Fin cfg0.N, isLast (grid0.coords t) → cfg0.idle 1 (grid0.coords t) = false := by decide +kernel
theorem live2_of : ∀ t : Fin cfg0.N, isLast (grid0.coords t) → cfg0.idle 2 (grid0.coords t) = false := by decide +kernel

/-! ## Whole-buffer loads and stores read back -/

/-- The all-zero offsets of a rank-four rectangle, however they are spelt. -/
theorem zeroOff : (![0, 0, 0, 0] : Fin 4 → ℕ) = fun _ => 0 := by
  funext a; fin_cases a <;> rfl

/-- The last of several stores, made through the whole-shape rectangle, is what the buffer reads afterwards. -/
theorem read_store_whole_cons {S : Shape} {sp : Space} (m : Memref sig .tc sp S .f32) (f : m.view.ty.Contents (Elt F))
    {off : Fin S.rank → ℕ} (hz : off = fun _ => 0) (inb : ∀ a, off a + S.size a ≤ S.size a) (w : S.Idx → Elt F .f32)
    (L : List (View.Piece (Elt F) S .f32)) :
    m.view.read (Elt F) (m.view.writes (Elt F) f (⟨Rect.unit off S.size inb, w⟩ :: L)) = w := by
  rw [View.read_writes_eq_canon _ _ _ (fun y => ⟨_, List.mem_cons_self, View.mem_set_unit_zero hz inb y⟩),
    View.canon_cons_unit_zero hz]

/-- One store through the whole-shape rectangle reads back as the stored vector, whatever the buffer held. -/
theorem read_store_whole {S : Shape} {sp : Space} (m : Memref sig .tc sp S .f32) (f : m.view.ty.Contents (Elt F))
    {off : Fin S.rank → ℕ} (hz : off = fun _ => 0) (inb : ∀ a, off a + S.size a ≤ S.size a) (w : S.Idx → Elt F .f32) :
    m.view.read (Elt F) (m.view.writes (Elt F) f [⟨Rect.unit off S.size inb, w⟩]) = w :=
  read_store_whole_cons m f hz inb w []

/-- A load through the whole-shape rectangle of a whole memref held at `X` reads `X`. -/
theorem load_whole {S : Shape} {sp : Space} (m : Memref sig .tc sp S .f32) (hm : m.IsWhole) (X : S.Idx → Elt F .f32)
    {off : Fin S.rank → ℕ} (hz : off = fun _ => 0) (inb : ∀ a, off a + S.size a ≤ S.size a) :
    View.readAt (Elt F) m.view (Rect.unit off S.size inb).toLoadRect (hm.unread X) = X := by
  rw [View.readAt_eq_ld, hm.read_unread, View.ld_unit_zero hz]

/-! ## The body in its three control cases, on any whole memrefs

In each case the input's memref holds a block `x` and keeps it. Neither conditional taken: the scratch memrefs go from
`a`, `b` to `k0_pay3 x a`, `k0_pay4 x b`, and the result memrefs are not touched. First conditional taken: the scratch
memrefs start at anything, are zeroed, and end at the update of the zero vectors. Second conditional taken: after the
update the scratch memrefs are copied into the result memrefs, which start at anything. -/

/-- Neither conditional taken. -/
theorem run_mid (c : Dev nD) (i : grid0.Coords)
    (arg2 : Memref sig .tc .vmem S1x64x128x256 .f32) (harg2 : arg2.IsWhole)
    (arg3 : Memref sig .tc .vmem S1x64x1x1 .f32) (harg3 : arg3.IsWhole)
    (arg4 : Memref sig .tc .vmem S1x64x1x1 .f32) (harg4 : arg4.IsWhole)
    (arg5 : Memref sig .tc .vmem S1x64x1x1 .f32) (harg5 : arg5.IsWhole)
    (arg6 : Memref sig .tc .vmem S1x64x1x1 .f32) (harg6 : arg6.IsWhole)
    (hc0 : ¬isFirst i) (hc1 : ¬isLast i)
    (x : Vec F S1x64x128x256 .f32) (a b : Vec F S1x64x1x1 .f32) (E : Set ℕ) (K : PUnit → sProp 𝕄) :
    iprop(owns (c : Thread nD τ) arg2 fullShare x ∗ owns (c : Thread nD τ) arg5 fullShare a ∗ owns (c : Thread nD τ) arg6 fullShare b
        ∗ (iprop(owns (c : Thread nD τ) arg2 fullShare x ∗ owns (c : Thread nD τ) arg5 fullShare (k0_pay3 x a)
            ∗ owns (c : Thread nD τ) arg6 fullShare (k0_pay4 x b)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f5, %hf5, H5⟩, ⟨%f6, %hf6, H6⟩, Hk⟩
  obtain rfl := harg2.eq_unread hf0; obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H5]
  · iexists _; isplitr
    swap; · iexact H5
    ipureintro
    rw [read_store_whole arg5 _ zeroOff, load_whole arg2 harg2 x zeroOff, load_whole arg5 harg5 a zeroOff]
  iexists _; isplitr
  swap; · iexact H6
  ipureintro
  rw [read_store_whole arg6 _ zeroOff, load_whole arg2 harg2 x zeroOff, load_whole arg6 harg6 b zeroOff]

/-- The first conditional taken. -/
theorem run_first (c : Dev nD) (i : grid0.Coords)
    (arg2 : Memref sig .tc .vmem S1x64x128x256 .f32) (harg2 : arg2.IsWhole)
    (arg3 : Memref sig .tc .vmem S1x64x1x1 .f32) (harg3 : arg3.IsWhole)
    (arg4 : Memref sig .tc .vmem S1x64x1x1 .f32) (harg4 : arg4.IsWhole)
    (arg5 : Memref sig .tc .vmem S1x64x1x1 .f32) (harg5 : arg5.IsWhole)
    (arg6 : Memref sig .tc .vmem S1x64x1x1 .f32) (harg6 : arg6.IsWhole)
    (hc0 : isFirst i) (hc1 : ¬isLast i)
    (x : Vec F S1x64x128x256 .f32) (E : Set ℕ) (K : PUnit → sProp 𝕄) :
    iprop(owns (c : Thread nD τ) arg2 fullShare x ∗ (∃ d, owns (c : Thread nD τ) arg5 fullShare d) ∗ (∃ d, owns (c : Thread nD τ) arg6 fullShare d)
        ∗ (iprop(owns (c : Thread nD τ) arg2 fullShare x ∗ owns (c : Thread nD τ) arg5 fullShare (k0_pay3 x (k0_pay1 (F := F)))
            ∗ owns (c : Thread nD τ) arg6 fullShare (k0_pay4 x (k0_pay2 (F := F)))) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%d5, %f5, -, H5⟩, ⟨%d6, %f6, -, H6⟩, Hk⟩
  obtain rfl := harg2.eq_unread hf0
  sl_exec (disch := first | exact hc0 | exact hc1)
  sl_step
  iapply Hk
  isplitl [H0]
  · iexists _; isplitr; · ipureintro; exact harg2.read_unread _
    iexact H0
  isplitl [H5]
  · iexists _; isplitr
    swap; · iexact H5
    ipureintro
    rw [read_store_whole_cons arg5 _ zeroOff, load_whole arg2 harg2 x zeroOff]
    sl_unfold_run_names
    rw [View.readCov_unit_zero _ zeroOff]
  iexists _; isplitr
  swap; · iexact H6
  ipureintro
  rw [read_store_whole_cons arg6 _ zeroOff, load_whole arg2 harg2 x zeroOff]
  sl_unfold_run_names
  rw [View.readCov_unit_zero _ zeroOff]

/-- The second conditional taken. -/
theorem run_last (c : Dev nD) (i : grid0.Coords)
    (arg2 : Memref sig .tc .vmem S1x64x128x256 .f32) (harg2 : arg2.IsWhole)
    (arg3 : Memref sig .tc .vmem S1x64x1x1 .f32) (harg3 : arg3.IsWhole)
    (arg4 : Memref sig .tc .vmem S1x64x1x1 .f32) (harg4 : arg4.IsWhole)
    (arg5 : Memref sig .tc .vmem S1x64x1x1 .f32) (harg5 : arg5.IsWhole)
    (arg6 : Memref sig .tc .vmem S1x64x1x1 .f32) (harg6 : arg6.IsWhole)
    (hc0 : ¬isFirst i) (hc1 : isLast i)
    (x : Vec F S1x64x128x256 .f32) (a b : Vec F S1x64x1x1 .f32) (E : Set ℕ) (K : PUnit → sProp 𝕄) :
    iprop(owns (c : Thread nD τ) arg2 fullShare x ∗ owns (c : Thread nD τ) arg5 fullShare a ∗ owns (c : Thread nD τ) arg6 fullShare b
        ∗ (∃ d, owns (c : Thread nD τ) arg3 fullShare d) ∗ (∃ d, owns (c : Thread nD τ) arg4 fullShare d)
        ∗ (iprop(owns (c : Thread nD τ) arg2 fullShare x ∗ owns (c : Thread nD τ) arg5 fullShare (k0_pay3 x a)
            ∗ owns (c : Thread nD τ) arg6 fullShare (k0_pay4 x b)
            ∗ owns (c : Thread nD τ) arg3 fullShare (k0_pay3 x a) ∗ owns (c : Thread nD τ) arg4 fullShare (k0_pay4 x b)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  simp only [k0_part1_eq_skeleton]; unfold k0_part1_skel
  unfold owns
  iintro ⟨⟨%f0, %hf0, H0⟩, ⟨%f5, %hf5, H5⟩, ⟨%f6, %hf6, H6⟩, ⟨%d3, %f3, -, H3⟩, ⟨%d4, %f4, -, H4⟩, Hk⟩
  obtain rfl := harg2.eq_unread hf0; obtain rfl := harg5.eq_unread hf5; obtain rfl := harg6.eq_unread hf6
  sl_exec (disch := first | exact hc0 | exact hc1)
  sl_step
  iapply Hk
  isplitl [H0]
  · iexists _; isplitr; · ipureintro; exact harg2.read_unread _
    iexact H0
  isplitl [H5]
  · iexists _; isplitr
    swap; · iexact H5
    ipureintro
    sl_unfold_run_names
    rw [read_store_whole arg5 _ zeroOff, load_whole arg2 harg2 x zeroOff, load_whole arg5 harg5 a zeroOff]
  isplitl [H6]
  · iexists _; isplitr
    swap; · iexact H6
    ipureintro
    sl_unfold_run_names
    rw [read_store_whole arg6 _ zeroOff, load_whole arg2 harg2 x zeroOff, load_whole arg6 harg6 b zeroOff]
  isplitl [H3]
  · iexists _; isplitr
    swap; · iexact H3
    ipureintro
    rw [read_store_whole arg3 _ zeroOff]
    sl_unfold_run_names
    rw [View.readCov_unit_zero _ zeroOff, load_whole arg2 harg2 x zeroOff, load_whole arg5 harg5 a zeroOff]
  iexists _; isplitr
  swap; · iexact H4
  ipureintro
  rw [read_store_whole arg4 _ zeroOff]
  sl_unfold_run_names
  rw [View.readCov_unit_zero _ zeroOff, load_whole arg2 harg2 x zeroOff, load_whole arg6 harg6 b zeroOff]

/-! ## The invariant and the running sums at a point, by its position -/

theorem acc_first (c : Dev nD) (t : Fin cfg0.N) (h : t.val = 0) :
    acc V c t.val t.isLt = (k0_pay3 (xblk0 V c t) (k0_pay1 (F := F)), k0_pay4 (xblk0 V c t) (k0_pay2 (F := F))) := by
  obtain ⟨n, hn⟩ := t
  cases n with
  | zero => rfl
  | succ n => exact absurd h (Nat.succ_ne_zero n)

theorem acc_pos (c : Dev nD) (t : Fin cfg0.N) (h : t.val ≠ 0) (hp : t.val - 1 < cfg0.N) :
    acc V c t.val t.isLt = (k0_pay3 (xblk0 V c t) (acc V c (t.val - 1) hp).1, k0_pay4 (xblk0 V c t) (acc V c (t.val - 1) hp).2) := by
  obtain ⟨n, hn⟩ := t
  cases n with
  | zero => exact absurd rfl h
  | succ n => rfl

theorem PhiS_of_eq_zero (c : Dev nD) (n : ℕ) (h : n ≤ cfg0.N) (hz : n = 0) : PhiS V c n h = Pipeline.ΦA spec0 c := by
  subst hz; rfl

theorem PhiS_of_ne_zero (c : Dev nD) (n : ℕ) (h : n ≤ cfg0.N) (hz : n ≠ 0) (hp : n - 1 < cfg0.N) :
    PhiS V c n h = iprop(owns (c : Thread nD τ) sc0 fullShare (acc V c (n - 1) hp).1 ∗ owns (c : Thread nD τ) sc1 fullShare (acc V c (n - 1) hp).2
      ∗ others c ∗ (∃ r, prngReg c r)) := by
  cases n with
  | zero => exact absurd rfl hz
  | succ n => rfl

/-- The invariant at a point's start, restated at the point's position. -/
theorem Phi_castSucc (c : Dev nD) (t : Fin cfg0.N) :
    (dat0 V c).Φ t.castSucc = PhiS V c t.val (Nat.le_of_lt t.isLt) := by
  dsimp only [dat0]; simp only [Fin.coe_castSucc]

/-- What the launch hands the region, with the two scratch buffers as memrefs owned at some contents and the other
    call's staging buffers gathered. -/
theorem PhiA0_eq (c : Dev nD) :
    (Pipeline.ΦA spec0 c : sProp 𝕄)
      = iprop(((∃ d, owns (c : Thread nD τ) sc0 fullShare d) ∗ (∃ d, owns (c : Thread nD τ) sc1 fullShare d) ∗ others c)
          ∗ (∃ r, prngReg c r)) := by
  unfold Pipeline.ΦA others; rw [scopedRest0_eq]; simp only [sc0, sc1, owns_whole]; rfl

/-! ## The windows' staging memrefs at a point, and the input's block there -/

abbrev ms0 (t : Fin cfg0.N) : Memref sig .tc .vmem S1x64x128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x1x1 .f32 := win0_2.stage (cfg0.slots t 2)
abbrev hs2 (t : Fin cfg0.N) : (ms2 t).IsWhole := hstage0_2 ((cfg0.slots t 2).cast nbuf0_2)

/-- The input's current staging buffer holds the point's block at every point, fetched there or not: the window is an
    input, never idle and never cut, and the body leaves its block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The obligations -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The body at any point. The input's memref holds the point's block. By the point's position one of the three control
    cases applies: at the first point the invariant is the launch's and hands the scratch buffers over at anything; later
    it hands them over at the running sums of the point before. Either way the body leaves them at this point's running
    sums, which is the invariant after the point. Off the last point the result windows are idle and handed back as
    found; at the last point they receive the running sums. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t], after0_0]
  have hN : t.val < 64 := lt_of_lt_of_eq t.isLt (show cfg0.N = 64 from N_0)
  by_cases h0 : t.val = 0
  · have hl : ¬isLast (grid0.coords t) := fun h => by have := (last_iff t).mp h; omega
    rw [Dat.leavesExact_idle (dat0 V c) 1 t (idle1_of t hl) (noFlush1_of t hl),
      Dat.leavesExact_idle (dat0 V c) 2 t (idle2_of t hl) (noFlush2_of t hl)]
    rw [acc_first V c t h0]; dsimp only
    rw [Phi_castSucc V c t, PhiS_of_eq_zero V c _ _ h0, PhiA0_eq]
    iintro ⟨⟨⟨HS0, HS1, Hoth⟩, Hg⟩, Ho, ⟨%d0, H0⟩, H1, H2⟩
    iapply (run_first c (grid0.coords t) (ms0 t) (hs0 t) (ms1 t) (hs1 t) (ms2 t) (hs2 t) sc0 (Memref.isWhole_whole _) sc1 (Memref.isWhole_whole _)
      ((first_iff t).mpr h0) hl (xblk0 V c t) Set.univ _)
    isplitl [H0]; · iexact H0
    isplitl [HS0]; · iexact HS0
    isplitl [HS1]; · iexact HS1
    iintro ⟨H0, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexact H2
  · have hf : ¬isFirst (grid0.coords t) := fun h => h0 ((first_iff t).mp h)
    have hp : t.val - 1 < cfg0.N := Nat.lt_of_le_of_lt (Nat.sub_le _ _) t.isLt
    by_cases h63 : t.val = 63
    · have hl : isLast (grid0.coords t) := (last_iff t).mpr h63
      rw [show (dat0 V c).leavesExact 1 t = owns (c : Thread nD τ) (ms1 t) fullShare ((dat0 V c).after 1 t) from by
        unfold Dat.leavesExact; rw [live1_of t hl], after0_1]
      rw [show (dat0 V c).leavesExact 2 t = owns (c : Thread nD τ) (ms2 t) fullShare ((dat0 V c).after 2 t) from by
        unfold Dat.leavesExact; rw [live2_of t hl], after0_2]
      rw [acc_pos V c t h0 hp]; dsimp only
      rw [Phi_castSucc V c t, PhiS_of_ne_zero V c _ _ h0 hp]
      iintro ⟨⟨HS0, HS1, Hoth, Hg⟩, Ho, ⟨%d0, H0⟩, ⟨%d1, H1⟩, ⟨%d2, H2⟩⟩
      iapply (run_last c (grid0.coords t) (ms0 t) (hs0 t) (ms1 t) (hs1 t) (ms2 t) (hs2 t) sc0 (Memref.isWhole_whole _) sc1 (Memref.isWhole_whole _)
        hf hl (xblk0 V c t) (acc V c (t.val - 1) hp).1 (acc V c (t.val - 1) hp).2 Set.univ _)
      isplitl [H0]; · iexact H0
      isplitl [HS0]; · iexact HS0
      isplitl [HS1]; · iexact HS1
      isplitl [H1]; · iexists _; iexact H1
      isplitl [H2]; · iexists _; iexact H2
      iintro ⟨H0, HS0, HS1, H1, H2⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      iexact H2
    · have hl : ¬isLast (grid0.coords t) := fun h => h63 ((last_iff t).mp h)
      rw [Dat.leavesExact_idle (dat0 V c) 1 t (idle1_of t hl) (noFlush1_of t hl),
        Dat.leavesExact_idle (dat0 V c) 2 t (idle2_of t hl) (noFlush2_of t hl)]
      rw [acc_pos V c t h0 hp]; dsimp only
      rw [Phi_castSucc V c t, PhiS_of_ne_zero V c _ _ h0 hp]
      iintro ⟨⟨HS0, HS1, Hoth, Hg⟩, Ho, ⟨%d0, H0⟩, H1, H2⟩
      iapply (run_mid c (grid0.coords t) (ms0 t) (hs0 t) (ms1 t) (hs1 t) (ms2 t) (hs2 t) sc0 (Memref.isWhole_whole _) sc1 (Memref.isWhole_whole _)
        hf hl (xblk0 V c t) (acc V c (t.val - 1) hp).1 (acc V c (t.val - 1) hp).2 Set.univ _)
      isplitl [H0]; · iexact H0
      isplitl [HS0]; · iexact HS0
      isplitl [HS1]; · iexact HS1
      iintro ⟨H0, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero]

/-- After the last point the invariant gives the launch's back: the running sums' names are forgotten. -/
theorem hout0 (c : Dev nD) : (dat0 V c).Φ (Fin.last cfg0.N) ⊢ (Pipeline.ΦA spec0 c : sProp 𝕄) := by
  have hN : cfg0.N = 64 := N_0
  have hz : (Fin.last cfg0.N).val ≠ 0 := by rw [Fin.val_last]; omega
  have hp : (Fin.last cfg0.N).val - 1 < cfg0.N := by rw [Fin.val_last]; omega
  rw [show (dat0 V c).Φ (Fin.last cfg0.N) = PhiS V c (Fin.last cfg0.N).val (Nat.le_of_lt_succ (Fin.last cfg0.N).isLt) from rfl,
    PhiS_of_ne_zero V c _ _ hz hp, PhiA0_eq]
  iintro ⟨HS0, HS1, Hoth, Hg⟩
  isplitl [HS0 HS1 Hoth]
  · isplitl [HS0]; · iexists _; iexact HS0
    isplitl [HS1]; · iexists _; iexact HS1
    iexact Hoth
  iexact Hg

end Cert.KernelIdeal.Hand

end
-- ==== Proof.Norm.lean ====
/-
  The normalising region (the second kernel call), at the contents `V` it is entered from.

  Its grid has 64 points; at each the body loads the point's input block and the two per-channel vectors (whole-array
  windows, fetched once), and stores `(x - mean) / std`, the vectors broadcast along the block, into the result
  window's block, which is written back at every point. The body carries nothing from point to point.
-/
import proofs.«111102_j85839216378453_1_alg».proof.Proof.Gen.KernelIdeal.Launch
import proofs.«111102_j85839216378453_1_alg».proof.Proof.Gen.KernelIdeal.Skeleton
import proofs.«111102_j85839216378453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's accesses: each staging buffer whole. -/
abbrev rX : Rect S1x64x128x256 := Rect.unit (s := S1x64x128x256) ![0, 0, 0, 0] S1x64x128x256.size inb_S1x64x128x256_S1x64x128x256_0_0_0_0
abbrev rC : Rect S1x64x1x1 := Rect.unit (s := S1x64x1x1) ![0, 0, 0, 0] S1x64x1x1.size inb_S1x64x1x1_S1x64x1x1_0_0_0_0

/-- What the body leaves in the result window's buffer, from the three input blocks: its one store. -/
def out1 (x0 : Vec F S1x64x128x256 .f32) (x1 x2 : Vec F S1x64x1x1 .f32) : Vec F S1x64x128x256 .f32 :=
  View.canon [⟨rX, k1_pay1 (View.ld x0 rX) (View.ld x1 rC) (View.ld x2 rC)⟩]

/-! ## The proof data -/

/-- The region's proof data on core `c`: the arrays as found; after the body each input's buffer at its block and the
    result's at `out1` of the three; the launch's invariant, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

/-! ## What the body finds in the input windows -/

/-- The input block's window is refetched at every point, so its buffer holds the point's block. -/
theorem found_x (c : Dev nD) (t : Fin cfg1.N) (d) : (dat1 V c).before 0 t d = iblk1 V c 0 t := by
  have hkeep : ∀ s, (cfg1.win 0).cut (cfg1.grid.coords s) ((dat1 V c).after 0 s) = (dat1 V c).blockOf 0 s := by
    intro s
    rw [after1_0]
    unfold Dat.blockOf iblk1
    rw [A_eq1]
  rw [(dat1 V c).before_in_eq_fetched 0 rfl (fun _ => rfl) (fun _ _ _ => rfl) hkeep t d]
  unfold Dat.fetched Dat.blockOf iblk1
  rw [A_eq1]
  rfl

/-- The mean vector's window spans its whole array under a constant index: fetched at the first point only, it still
    holds that one block at every later point, because the body leaves it in place. -/
theorem found_mean (c : Dev nD) (t : Fin cfg1.N) (d) : (dat1 V c).before 1 t d = iblk1 V c 1 t := by
  have hkeep : ∀ s, (cfg1.win 1).cut (cfg1.grid.coords s) ((dat1 V c).after 1 s) = (dat1 V c).blockOf 1 s := by
    intro s
    rw [after1_1]
    unfold Dat.blockOf iblk1
    rw [A_eq1]
  rw [(dat1 V c).before_in_eq_fetched 1 rfl (fun _ => rfl) (fun _ _ _ => rfl) hkeep t d]
  unfold Dat.fetched Dat.blockOf iblk1
  rw [A_eq1]
  rfl

/-- Likewise the deviation vector's window. -/
theorem found_std (c : Dev nD) (t : Fin cfg1.N) (d) : (dat1 V c).before 2 t d = iblk1 V c 2 t := by
  have hkeep : ∀ s, (cfg1.win 2).cut (cfg1.grid.coords s) ((dat1 V c).after 2 s) = (dat1 V c).blockOf 2 s := by
    intro s
    rw [after1_2]
    unfold Dat.blockOf iblk1
    rw [A_eq1]
  rw [(dat1 V c).before_in_eq_fetched 2 rfl (fun _ => rfl) (fun _ _ _ => rfl) hkeep t d]
  unfold Dat.fetched Dat.blockOf iblk1
  rw [A_eq1]
  rfl

/-! ## The body's one store -/

/-- The store's rectangle is the whole result buffer, so it alone covers it. -/
theorem store_spans (p : Vec F S1x64x128x256 .f32) (y : S1x64x128x256.Idx) :
    ∃ pc ∈ ([⟨rX, p⟩] : List (View.Piece (Elt F) S1x64x128x256 .f32)), y ∈ pc.1.set :=
  View.cover_of_tiled [⟨rX, p⟩] S1x64x128x256.size (by rfl) y

set_option maxHeartbeats 1000000 in
/-- The normalising body on four whole buffers: holding a block `x`, a mean vector and a deviation vector in the three
    it reads, and anything in the fourth, it ends with the three unchanged and `out1 x mean std` in the fourth. The
    read of the fourth buffer's old contents is not used by the store. -/
theorem norm_triple (c : Dev nD) (E : Set ℕ) (i : grid1.Coords)
    (aX : Memref sig .tc .vmem S1x64x128x256 .f32) (haX : aX.IsWhole)
    (aMean : Memref sig .tc .vmem S1x64x1x1 .f32) (haMean : aMean.IsWhole)
    (aStd : Memref sig .tc .vmem S1x64x1x1 .f32) (haStd : aStd.IsWhole)
    (aOut : Memref sig .tc .vmem S1x64x128x256 .f32) (haOut : aOut.IsWhole)
    (x : Vec F S1x64x128x256 .f32) (mean std : Vec F S1x64x1x1 .f32) (K : PUnit → sProp 𝕄) :
    iprop(owns (c : Thread nD τ) aX fullShare x ∗ owns (c : Thread nD τ) aMean fullShare mean
        ∗ owns (c : Thread nD τ) aStd fullShare std ∗ (∃ d, owns (c : Thread nD τ) aOut fullShare d)
        ∗ (iprop(owns (c : Thread nD τ) aX fullShare x ∗ owns (c : Thread nD τ) aMean fullShare mean
            ∗ owns (c : Thread nD τ) aStd fullShare std ∗ owns (c : Thread nD τ) aOut fullShare (out1 x mean std)) -∗ K ⟨⟩))
      ⊢ wp frame (wpE (defs₀ (F := F)) Variants.none c none) E (cc1__norm_kernel i aX haX aMean haMean aStd haStd aOut haOut) K := by
  simp only [cc1__norm_kernel_eq_skeleton]; unfold cc1__norm_kernel_skel
  unfold owns
  iintro ⟨⟨%fx, %hx, Hx⟩, ⟨%fm, %hm, Hm⟩, ⟨%fs, %hs, Hs⟩, ⟨%d, %fo, -, Ho⟩, Hk⟩
  subst hx; subst hm; subst hs
  sl_exec
  sl_step
  iapply Hk
  isplitl [Hx]
  · iexists fx; isplitr
    · ipureintro; rfl
    · iexact Hx
  isplitl [Hm]
  · iexists fm; isplitr
    · ipureintro; rfl
    · iexact Hm
  isplitl [Hs]
  · iexists fs; isplitr
    · ipureintro; rfl
    · iexact Hs
  iexists _; isplitr
  rotate_left
  · iexact Ho
  · ipureintro
    exact View.read_writes_eq_canon _ _ _ (store_spans _)

/-! ## The body at a point -/

/-- What the pipeline hands the body at point `t`: the invariant, the core's debt, and the four current buffers, -/
def handed (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it takes back. -/
def returned (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At every point the three input buffers hold their blocks, so the body's triple applies at those blocks; the
    invariant and the debt are the same before and after, and pass through untouched. -/
theorem body_at (c : Dev nD) (t : Fin cfg1.N) :
    handed V c t ⊢ wp frame (wpE (defs₀ (F := F)) Variants.none c none) Set.univ (bodyAt1 t) (fun _ => returned V c t) := by
  unfold handed returned bodyAt1
  simp only [found_x, found_mean, found_std]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Hdebt, ⟨%d0, Hx⟩, ⟨%d1, Hm⟩, ⟨%d2, Hs⟩, ⟨%d3, Ho⟩⟩
  iapply (norm_triple c Set.univ _ _ _ _ _ _ _ _ _ (iblk1 V c 0 t) (iblk1 V c 1 t) (iblk1 V c 2 t) _)
  isplitl [Hx]; · iexact Hx
  isplitl [Hm]; · iexact Hm
  isplitl [Hs]; · iexact Hs
  isplitl [Ho]; · iexists _; iexact Ho
  iintro ⟨Hx, Hm, Hs, Ho⟩
  isplitl [HΦ]; · iexact HΦ
  isplitl [Hdebt]; · iexact Hdebt
  isplitl [Hx]; · iexact Hx
  isplitl [Hm]; · iexact Hm
  isplitl [Hs]; · iexact Hs
  iexact Ho

/-! ## The obligation -/

/-- The body obligation at every point. -/
theorem body_obligation1 (c : Dev nD) : BodyObligation (dat1 (F := F) V c) (defs₀ (F := F)) Variants.none () Set.univ := fun t => by
  rw [bigSep_W1, bigSep_W1]
  exact body_at V c t

end Cert.KernelIdeal.Hand

end
-- ==== Proof.Run.lean ====
/-
  The run of the kernel program: @main is the statistics region, eighteen host operations (mean, variance, clamp, root),
  and the normalising region. The contents of the TensorCore's unscoped buffers at the four boundaries are a fold from
  the launch memory: a region leaves its windows' arrays at what its write-backs make of them and every other buffer as
  it found it; the host stretch applies its operations. Every weakly fair execution terminates with each unscoped buffer
  at the last boundary's contents; the input array is never written, so it ends as launched.
-/
import proofs.«111102_j85839216378453_1_alg».proof.Proof.Stats
import proofs.«111102_j85839216378453_1_alg».proof.Proof.Norm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the boundaries -/

/-- At launch. -/
abbrev W0 : Dev nD → Valuation τ sig (Elt F) := fun c b => (s₀ m ρ).mem ((c : Dev nD), b)
/-- The same read at the TensorCore's references: what the statistics region is entered from. -/
abbrev V0 : (c : Dev nD) → (b : Ref sig .tc) → Buf (Elt F) ((c : Thread nD τ).loc b) := fun c b => W0 m ρ c b

/-- After the statistics region: its three arrays at what the pipeline leaves, the rest as entered. -/
def W1 (c : Dev nD) : Valuation τ sig (Elt F) :=
  Pipeline.withArrays spec0 c (W0 m ρ c) fun w => (dat0 (V0 m ρ) c).arrAt w cfg0.N

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w

theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev V1 : (c : Dev nD) → (b : Ref sig .tc) → Buf (Elt F) ((c : Thread nD τ).loc b) := fun c b => W1 m ρ c b

theorem exit0_arr (c : Dev nD) (w : Fin cfg0.W) : (dat0 (V0 m ρ) c).arrAt w cfg0.N = V1 m ρ c (Pipeline.arrRef spec0 w) :=
  (W1_arr m ρ c w).symm
theorem exit0_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch: what the normalising region is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the normalising region: its four arrays at what the pipeline leaves, the rest as entered. -/
def W3 (c : Dev nD) : Valuation τ sig (Elt F) :=
  Pipeline.withArrays spec1 c (W2 m ρ c) fun w => (dat1 (V2 m ρ) c).arrAt w cfg1.N

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w

theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b

theorem exit1_arr (c : Dev nD) (w : Fin cfg1.W) : (dat1 (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- No host operation allocates a buffer. -/
theorem host_fresh : (hostOps1 : List (HloOp τ sig (Elt F))).Forall fun op => op.fresh = ∅ := by
  simp only [List.Forall]; repeat' constructor

/-- No host operation writes the input array: each writes its own result only. -/
theorem W2_main_arg0 (c : Dev nD) : W2 m ρ c (Proc.devRef .tc main_arg0) = W1 m ρ c (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (by decide)))

/-- The input array is an input window of both regions and no host operation's result: it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) :=
        (W3_arr m ρ c 0).trans (((dat1 (V2 m ρ) c).arrAt_in 0 rfl _).trans (A_eq1 (V2 m ρ) c 0))
    _ = W1 m ρ c (Proc.devRef .tc main_arg0) := W2_main_arg0 m ρ c
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

/-- The result array is the normalising region's output window. -/
theorem W3_main_v14 (c : Dev nD) : W3 m ρ c (Proc.devRef .tc main_v14) = (dat1 (V2 m ρ) c).arrAt 3 cfg1.N :=
  W3_arr m ρ c 3

/-! ## The proof data family and the thread state -/

abbrev adm : (p : Fin 2) → (pcfgs (F := F) p).Adm := fun p => (cfgs p).toPCfg_adm

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m ρ c) ∗ ∃ r, prngReg c r)

/-- The host stretch as a segment from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp host_fresh) op h) (W1 m ρ) R

/-! ## The regions as segments -/

set_option backward.isDefEq.respectTransparency.types false in
/-- The statistics region over the thread state: entered from every unscoped buffer at `W0`, left at `W1`. Its arrays are
    split out of the unscoped buffers and put back at the exit contents; the generator register and the scoped rest
    go into the invariant (`hin0`) and come back out of it (`hout0`); nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m ρ 0 c).Φ 0 := hin0 (V0 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ (Pipeline.ΦA spec0 c : sProp 𝕄) := hout0 (V0 m ρ) c
    unfold Pipeline.ΦA at h
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region over the thread state: entered from every unscoped buffer at `W2`, left at `W3`; its invariant
    is the launch's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .host (hseg1 m ρ), .region (reg1 m ρ) ]

theorem main_run (c : Dev nD) : main (F := F) c = Pipeline.Seg.run (segs m ρ) :=
  main_segs adm (pdats m ρ) () 𝒱₀ L lv (hseg1 m ρ) (reg0 m ρ) (reg1 m ρ) rfl c

set_option backward.isDefEq.respectTransparency.types false in
/-- THE RUN. From any memory with zero counters every weakly fair execution of @main terminates, nothing faulting, and
    the final state holds every unscoped TensorCore buffer at the last boundary's contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run m ρ)

end Cert.KernelIdeal.Hand

end
-- ==== Proof.Spec.lean ====
/-
  The two sides of the claim as formulas over the extended reals, and the law that joins them.

  The input is `x : [32, 64, 256, 256]`, channels on axis 1. For a channel `c` write `∑_c f` for the sum of `f`
  over the `n = 32 · 256 · 256 = 2²¹` indices whose axis-1 coordinate is `c`. Both programs return, at index `i` of
  channel `c`,   `(x i - μ c) / √(max (V c / (n - 1)) ε + ε)`   with `μ c = (∑_c x) / n`; they differ only in `V`:
  one side computes `V c = ∑_c x² - (n · μ c) · μ c` from two running sums, the other the two-pass
  `V c = ∑_c (x - μ c)²`. Over the reals the two agree because `n · μ c = ∑_c x`; on the extended reals that step
  (a distributive law) needs every entry of `x` to be a real number.
-/
import Idealize.ShloMosaic.PureOps.Ideal
import Idealize.ShloMosaic.PureOps.Ideal.Laws

noncomputable section

namespace Cert.Stats

open Idealize.ShloMosaic
open scoped BigOperators

/-- The input array's shape. -/
abbrev SX : Shape := ⟨4, ![32, 64, 256, 256]⟩

/-- The count `n = 2²¹`, `n - 1`, and `ε`, as the words both programs carry. -/
def nE : EReal := Ideal.ofBits .f32 0x4A000000#32
def n1E : EReal := Ideal.ofBits .f32 0x49FFFFF8#32
def epsE : EReal := Ideal.ofBits .f32 0x322BCC77#32

/-- The channel of an index: its axis-1 coordinate. -/
def chanOf (i : SX.Idx) : Fin 64 := ⟨(i 1).val, (i 1).isLt⟩

/-- The indices of channel `c`. -/
def chan (c : Fin 64) : Finset SX.Idx := Finset.univ.filter fun i => chanOf i = c

/-- `∑_c f`. -/
def colSum (f : SX.Idx → EReal) (c : Fin 64) : EReal := ∑ i ∈ chan c, f i

/-- `μ c`. -/
def mean (x : SX.Idx → EReal) (c : Fin 64) : EReal := Ideal.div (colSum x c) nE

/-- From `V` to the divisor: `√(max (V / (n - 1)) ε + ε)`. The same function on both sides; never opened. -/
def spread (v : EReal) : EReal := Ideal.sqrt (max (Ideal.div v n1E) epsE + epsE)

/-- `V` from the two running sums. -/
def varK (x : SX.Idx → EReal) (c : Fin 64) : EReal :=
  colSum (fun i => x i * x i) c - nE * mean x c * mean x c

/-- `V` in two passes. -/
def varR (x : SX.Idx → EReal) (c : Fin 64) : EReal :=
  colSum (fun i => (x i - mean x c) * (x i - mean x c)) c

/-- The result with `V` from the running sums, -/
def GK (x : SX.Idx → EReal) : SX.Idx → EReal := fun i =>
  Ideal.div (x i - mean x (chanOf i)) (spread (varK x (chanOf i)))

/-- and with the two-pass `V`. -/
def GR (x : SX.Idx → EReal) : SX.Idx → EReal := fun i =>
  Ideal.div (x i - mean x (chanOf i)) (spread (varR x (chanOf i)))

end Cert.Stats

end
-- ==== Proof.StatsValue.lean ====
/-
  What the statistics region leaves in its two result arrays, at the extended reals: channel by channel, the sum of the
  input array over the channel's indices, and the sum of its squares.

  The running sum after point `n` is, at channel `c`, the sum of the input over the channel's indices that lie in the
  blocks of points `0 … n` (point `t` holds batch `t / 2` and rows `128 · (t % 2) … 128 · (t % 2) + 127`); after the
  last point that is the whole channel. The two result windows are written back once, at the last point, whole.
-/
import proofs.«111102_j85839216378453_1_alg».proof.Proof.Stats
import proofs.«111102_j85839216378453_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open scoped BigOperators

-- the TensorCore's buffer contents when the region is entered, at the extended reals
variable (V : (c : Dev nD) → (b : Ref sig .tc) → Buf (Elt Ideal) ((c : Thread nD τ).loc b))

/-- The channel of an index of a per-channel vector `[1, 64, 1, 1]`. -/
def chanV (j : S1x64x1x1.Idx) : Fin 64 := ⟨(j 1).val, (j 1).isLt⟩

/-- The input array as the region finds it, and the two result arrays as it leaves them, as functions of an index. -/
abbrev xin0 (c : Dev nD) : S32x64x256x256.Idx → EReal := V c main_arg0
abbrev sumArr (c : Dev nD) : S1x64x1x1.Idx → EReal := (dat0 (F := Ideal) V c).arrAt 1 cfg0.N
abbrev sqArr (c : Dev nD) : S1x64x1x1.Idx → EReal := (dat0 (F := Ideal) V c).arrAt 2 cfg0.N

/-- The index of channel `k` in a per-channel vector `[64]`. -/
def at64 (k : Fin 64) : S64.Idx := fun a => match a with | ⟨0, _⟩ => k

/-- The first point's reset values are the zero vector. -/
theorem pay1_apply (j : S1x64x1x1.Idx) : (k0_pay1 (F := Ideal) : S1x64x1x1.Idx → EReal) j = 0 := by
  unfold k0_pay1
  rw [shapeCast_self]
  exact Ideal.ofBits_zero_f32

theorem pay2_apply (j : S1x64x1x1.Idx) : (k0_pay2 (F := Ideal) : S1x64x1x1.Idx → EReal) j = 0 := by
  unfold k0_pay2
  rw [shapeCast_self]
  exact Ideal.ofBits_zero_f32

/-- Reducing a block over its batch, row and column axes leaves, at channel `k`, the sum over the block's
    indices of that channel. -/
theorem reduce_chan (x : S1x64x128x256.Idx → EReal) (k : S64.Idx) :
    Ideal.reduceAdd reduces_S1x64x128x256_S64 x k
      = ∑ y ∈ Finset.univ.filter (fun y : S1x64x128x256.Idx => (y 1).val = (k 0).val), x y := by
  unfold Ideal.reduceAdd
  refine Finset.sum_congr ?_ (fun _ _ => rfl)
  ext y
  simp only [Finset.mem_filter, Finset.mem_univ, true_and]
  have hd : ((reduces_S1x64x128x256_S64.drop y) 0 : Nat) = (y 1 : Nat) :=
    Shape.Reduces.drop_apply_val_of_eq reduces_S1x64x128x256_S64 y 0 1
  constructor
  · intro h; rw [← h]; exact hd.symm
  · intro h
    funext b
    apply Fin.ext
    match b with
    | ⟨0, _⟩ => exact hd.trans h

/-- The per-channel vector `[64]` viewed as `[1, 64, 1, 1]` reads, at `j`, its entry at `j`'s channel. -/
theorem cast_chan (v : S64.Idx → EReal) (j : S1x64x1x1.Idx) :
    shapeCast S1x64x1x1 v shapeCasts_S64_S1x64x1x1 j = v (at64 (chanV j)) := by
  refine shapeCast_apply v shapeCasts_S64_S1x64x1x1 j _ ?_
  rw [Shape.rowMajor_val_one, Shape.rowMajor_val_four]
  have h0 : (j 0).val < 1 := (j 0).isLt
  have h2 : (j 2).val < 1 := (j 2).isLt
  have h3 : (j 3).val < 1 := (j 3).isLt
  show (j 1).val = (((j 0).val * 64 + (j 1).val) * 1 + (j 2).val) * 1 + (j 3).val
  omega

/-- One step of the running sum: what was there plus the block's sum over the channel. -/
theorem pay3_apply (x : S1x64x128x256.Idx → EReal) (a : S1x64x1x1.Idx → EReal) (j : S1x64x1x1.Idx) :
    (k0_pay3 (F := Ideal) x a : S1x64x1x1.Idx → EReal) j
      = a j + ∑ y ∈ Finset.univ.filter (fun y : S1x64x128x256.Idx => (y 1).val = (j 1).val), x y := by
  unfold k0_pay3
  rw [shapeCast_self]
  show a j + shapeCast S1x64x1x1 (Ideal.reduceAdd reduces_S1x64x128x256_S64 x) shapeCasts_S64_S1x64x1x1 j = _
  rw [cast_chan, reduce_chan]
  rfl

/-- One step of the running sum of squares. -/
theorem pay4_apply (x : S1x64x128x256.Idx → EReal) (a : S1x64x1x1.Idx → EReal) (j : S1x64x1x1.Idx) :
    (k0_pay4 (F := Ideal) x a : S1x64x1x1.Idx → EReal) j
      = a j + ∑ y ∈ Finset.univ.filter (fun y : S1x64x128x256.Idx => (y 1).val = (j 1).val), x y * x y := by
  unfold k0_pay4
  rw [shapeCast_self]
  show a j + shapeCast S1x64x1x1 (Ideal.reduceAdd reduces_S1x64x128x256_S64 (fun y => x y * x y)) shapeCasts_S64_S1x64x1x1 j = _
  rw [cast_chan, reduce_chan]
  rfl

/-- The point whose input block holds array index `i`: two points per batch, 128 rows each. -/
def ptOf (i : S32x64x256x256.Idx) : ℕ := (i 0).val * 2 + (i 2).val / 128

/-- Where element `y` of point `t`'s input block sits in the input array: batch `t / 2`, the same channel,
    row `128 · (t % 2) + y₂`, the same column. -/
def place (t : ℕ) (ht : t < 64) (y : S1x64x128x256.Idx) : S32x64x256x256.Idx := fun a =>
  match a with
  | ⟨0, _⟩ => ⟨t / 2, by show t / 2 < 32; omega⟩
  | ⟨1, _⟩ => ⟨(y 1).val, (y 1).isLt⟩
  | ⟨2, _⟩ => ⟨128 * (t % 2) + (y 2).val, by have h : (y 2).val < 128 := (y 2).isLt; show _ < 256; omega⟩
  | ⟨3, _⟩ => ⟨(y 3).val, (y 3).isLt⟩

/-- The array index `i` as an element of the block that holds it. -/
def inBlk (i : S32x64x256x256.Idx) : S1x64x128x256.Idx := fun a =>
  match a with
  | ⟨0, _⟩ => ⟨0, Nat.one_pos⟩
  | ⟨1, _⟩ => ⟨(i 1).val, (i 1).isLt⟩
  | ⟨2, _⟩ => ⟨(i 2).val % 128, by show _ < 128; omega⟩
  | ⟨3, _⟩ => ⟨(i 3).val, (i 3).isLt⟩

/-- The input window's block index at point `t`, in closed form: decided once over the 64 grid points. -/
theorem index0_0 : ∀ t : Fin cfg0.N, win0_0.index t 0 = t.val / 2 ∧ win0_0.index t 1 = 0
    ∧ win0_0.index t 2 = t.val % 2 ∧ win0_0.index t 3 = 0 :=
  (by decide +kernel : ∀ t : Fin grid0.N, win0_0.index t 0 = t.val / 2 ∧ win0_0.index t 1 = 0
    ∧ win0_0.index t 2 = t.val % 2 ∧ win0_0.index t 3 = 0)

/-- The input block of point `t` read at `y` is the input array read where `y` sits. -/
theorem xblk_apply (c : Dev nD) (t : Fin cfg0.N) (ht : t.val < 64) (y : S1x64x128x256.Idx) :
    (xblk0 (F := Ideal) V c t : S1x64x128x256.Idx → EReal) y = xin0 V c (place t.val ht y) := by
  obtain ⟨i0, i1, i2, i3⟩ := index0_0 t
  have y0 : (y 0).val < 1 := (y 0).isLt
  unfold xblk0 iblk0
  rw [View.read_apply]
  show V c main_arg0 _ = V c main_arg0 _
  congr 1
  funext a
  apply Fin.ext
  match a with
  | ⟨0, _⟩ => show win0_0.index t 0 * 1 + 1 * (y 0).val = t.val / 2; rw [i0]; omega
  | ⟨1, _⟩ => show win0_0.index t 1 * 64 + 1 * (y 1).val = (y 1).val; rw [i1]; omega
  | ⟨2, _⟩ => show win0_0.index t 2 * 128 + 1 * (y 2).val = 128 * (t.val % 2) + (y 2).val; rw [i2]; omega
  | ⟨3, _⟩ => show win0_0.index t 3 * 256 + 1 * (y 3).val = (y 3).val; rw [i3]; omega

/-- A channel's part of the array that point `t`'s block holds, summed, is the block's sum over that channel. -/
theorem sum_at_point (f : S32x64x256x256.Idx → EReal) (t : ℕ) (ht : t < 64) (k : ℕ) :
    ∑ i ∈ Finset.univ.filter (fun i : S32x64x256x256.Idx => (i 1).val = k ∧ ptOf i = t), f i
      = ∑ y ∈ Finset.univ.filter (fun y : S1x64x128x256.Idx => (y 1).val = k), f (place t ht y) := by
  refine Finset.sum_nbij' inBlk (place t ht) ?_ ?_ ?_ ?_ ?_
  · intro i hi
    simp only [Finset.mem_filter, Finset.mem_univ, true_and] at hi ⊢
    exact hi.1
  · intro y hy
    simp only [Finset.mem_filter, Finset.mem_univ, true_and] at hy ⊢
    have h2 : (y 2).val < 128 := (y 2).isLt
    refine ⟨hy, ?_⟩
    show t / 2 * 2 + (128 * (t % 2) + (y 2).val) / 128 = t
    omega
  · intro i hi
    simp only [Finset.mem_filter, Finset.mem_univ, true_and] at hi
    have hp : (i 0).val * 2 + (i 2).val / 128 = t := hi.2
    have h2 : (i 2).val < 256 := (i 2).isLt
    funext a
    apply Fin.ext
    match a with
    | ⟨0, _⟩ => show t / 2 = (i 0).val; omega
    | ⟨1, _⟩ => rfl
    | ⟨2, _⟩ => show 128 * (t % 2) + (i 2).val % 128 = (i 2).val; omega
    | ⟨3, _⟩ => rfl
  · intro y hy
    have h0 : (y 0).val < 1 := (y 0).isLt
    have h2 : (y 2).val < 128 := (y 2).isLt
    funext a
    apply Fin.ext
    match a with
    | ⟨0, _⟩ => show 0 = (y 0).val; omega
    | ⟨1, _⟩ => rfl
    | ⟨2, _⟩ => show (128 * (t % 2) + (y 2).val) % 128 = (y 2).val; omega
    | ⟨3, _⟩ => rfl
  · intro i hi
    simp only [Finset.mem_filter, Finset.mem_univ, true_and] at hi
    have hp : (i 0).val * 2 + (i 2).val / 128 = t := hi.2
    have h2 : (i 2).val < 256 := (i 2).isLt
    congr 1
    funext a
    apply Fin.ext
    match a with
    | ⟨0, _⟩ => show (i 0).val = t / 2; omega
    | ⟨1, _⟩ => rfl
    | ⟨2, _⟩ => show (i 2).val = 128 * (t % 2) + (i 2).val % 128; omega
    | ⟨3, _⟩ => rfl

/-- The part of a channel held by point 0's block alone. -/
theorem sum_upto_zero (f : S32x64x256x256.Idx → EReal) (k : ℕ) :
    ∑ i ∈ Finset.univ.filter (fun i : S32x64x256x256.Idx => (i 1).val = k ∧ ptOf i ≤ 0), f i
      = ∑ i ∈ Finset.univ.filter (fun i : S32x64x256x256.Idx => (i 1).val = k ∧ ptOf i = 0), f i := by
  refine Finset.sum_congr ?_ (fun _ _ => rfl)
  ext i
  simp only [Finset.mem_filter, Finset.mem_univ, true_and]
  omega

/-- The part of a channel held by the blocks of points `0 … n + 1` is the part held by those of `0 … n` and,
    disjoint from it, the part held by point `n + 1`'s. -/
theorem sum_upto_succ (f : S32x64x256x256.Idx → EReal) (k n : ℕ) :
    ∑ i ∈ Finset.univ.filter (fun i : S32x64x256x256.Idx => (i 1).val = k ∧ ptOf i ≤ n + 1), f i
      = ∑ i ∈ Finset.univ.filter (fun i : S32x64x256x256.Idx => (i 1).val = k ∧ ptOf i ≤ n), f i
        + ∑ i ∈ Finset.univ.filter (fun i : S32x64x256x256.Idx => (i 1).val = k ∧ ptOf i = n + 1), f i := by
  rw [← Finset.sum_union (Finset.disjoint_filter.2 fun i _ h1 h2 => by omega)]
  refine Finset.sum_congr ?_ (fun _ _ => rfl)
  ext i
  simp only [Finset.mem_union, Finset.mem_filter, Finset.mem_univ, true_and]
  omega

/-- Every index lies in the block of one of the 64 points, so after the last point the part is the whole channel. -/
theorem sum_upto_last (f : S32x64x256x256.Idx → EReal) (j : S1x64x1x1.Idx) :
    ∑ i ∈ Finset.univ.filter (fun i : S32x64x256x256.Idx => (i 1).val = (j 1).val ∧ ptOf i ≤ 63), f i
      = Cert.Stats.colSum f (chanV j) := by
  unfold Cert.Stats.colSum Cert.Stats.chan
  refine Finset.sum_congr ?_ (fun _ _ => rfl)
  ext i
  simp only [Finset.mem_filter, Finset.mem_univ, true_and]
  have h0 : (i 0).val < 32 := (i 0).isLt
  have h2 : (i 2).val < 256 := (i 2).isLt
  constructor
  · intro h; exact Fin.ext h.1
  · intro h
    refine ⟨congrArg Fin.val h, ?_⟩
    show (i 0).val * 2 + (i 2).val / 128 ≤ 63
    omega

/-- Point `t`'s input block summed over a channel is the input array summed over the channel's indices that the
    block holds; -/
theorem xblk_sum (c : Dev nD) (t : Fin cfg0.N) (k : ℕ) :
    ∑ y ∈ Finset.univ.filter (fun y : S1x64x128x256.Idx => (y 1).val = k),
        (xblk0 (F := Ideal) V c t : S1x64x128x256.Idx → EReal) y
      = ∑ i ∈ Finset.univ.filter (fun i : S32x64x256x256.Idx => (i 1).val = k ∧ ptOf i = t.val), xin0 V c i := by
  have ht : t.val < 64 := lt_of_lt_of_eq t.isLt (show cfg0.N = 64 from N_0)
  rw [sum_at_point (xin0 V c) t.val ht k]
  exact Finset.sum_congr rfl fun y _ => xblk_apply V c t ht y

/-- and likewise for the squares. -/
theorem xblk_sq_sum (c : Dev nD) (t : Fin cfg0.N) (k : ℕ) :
    ∑ y ∈ Finset.univ.filter (fun y : S1x64x128x256.Idx => (y 1).val = k),
        (xblk0 (F := Ideal) V c t : S1x64x128x256.Idx → EReal) y * (xblk0 (F := Ideal) V c t : S1x64x128x256.Idx → EReal) y
      = ∑ i ∈ Finset.univ.filter (fun i : S32x64x256x256.Idx => (i 1).val = k ∧ ptOf i = t.val),
          xin0 V c i * xin0 V c i := by
  have ht : t.val < 64 := lt_of_lt_of_eq t.isLt (show cfg0.N = 64 from N_0)
  rw [sum_at_point (fun i => xin0 V c i * xin0 V c i) t.val ht k]
  exact Finset.sum_congr rfl fun y _ => by rw [xblk_apply V c t ht y]

/-- THE RUNNING SUMS. After point `n` the two scratch vectors hold, at `j`, the sum of the input (of its squares)
    over the indices of `j`'s channel that lie in the blocks of points `0 … n`: by induction on the point. -/
theorem acc_sums (c : Dev nD) : ∀ (n : ℕ) (h : n < cfg0.N) (j : S1x64x1x1.Idx),
    ((acc (F := Ideal) V c n h).1 : S1x64x1x1.Idx → EReal) j
        = ∑ i ∈ Finset.univ.filter (fun i : S32x64x256x256.Idx => (i 1).val = (j 1).val ∧ ptOf i ≤ n), xin0 V c i
    ∧ ((acc (F := Ideal) V c n h).2 : S1x64x1x1.Idx → EReal) j
        = ∑ i ∈ Finset.univ.filter (fun i : S32x64x256x256.Idx => (i 1).val = (j 1).val ∧ ptOf i ≤ n),
            xin0 V c i * xin0 V c i
  | 0, h, j => by
    rw [acc_zero]
    refine ⟨?_, ?_⟩
    · show (k0_pay3 (F := Ideal) (xblk0 (F := Ideal) V c ⟨0, h⟩) (k0_pay1 (F := Ideal)) : S1x64x1x1.Idx → EReal) j = _
      rw [pay3_apply, pay1_apply, zero_add, sum_upto_zero]
      exact xblk_sum V c ⟨0, h⟩ (j 1).val
    · show (k0_pay4 (F := Ideal) (xblk0 (F := Ideal) V c ⟨0, h⟩) (k0_pay2 (F := Ideal)) : S1x64x1x1.Idx → EReal) j = _
      rw [pay4_apply, pay2_apply, zero_add, sum_upto_zero]
      exact xblk_sq_sum V c ⟨0, h⟩ (j 1).val
  | n + 1, h, j => by
    obtain ⟨ih1, ih2⟩ := acc_sums c n (Nat.lt_of_succ_lt h) j
    rw [acc_succ]
    refine ⟨?_, ?_⟩
    · show (k0_pay3 (F := Ideal) (xblk0 (F := Ideal) V c ⟨n + 1, h⟩)
          (acc (F := Ideal) V c n (Nat.lt_of_succ_lt h)).1 : S1x64x1x1.Idx → EReal) j = _
      rw [pay3_apply, ih1, sum_upto_succ]
      congr 1
      exact xblk_sum V c ⟨n + 1, h⟩ (j 1).val
    · show (k0_pay4 (F := Ideal) (xblk0 (F := Ideal) V c ⟨n + 1, h⟩)
          (acc (F := Ideal) V c n (Nat.lt_of_succ_lt h)).2 : S1x64x1x1.Idx → EReal) j = _
      rw [pay4_apply, ih2, sum_upto_succ]
      congr 1
      exact xblk_sq_sum V c ⟨n + 1, h⟩ (j 1).val

/-- The last grid point, the only one that writes the two result windows back. -/
abbrev tLast : Fin cfg0.N := ⟨63, by rw [show cfg0.N = 64 from N_0]; decide⟩

/-- The two result windows' block index is zero on every axis, at every point: decided once over the 64 grid points. -/
theorem index0_1 : ∀ (t : Fin cfg0.N) (a : Fin 4), win0_1.index t a = 0 :=
  (by decide +kernel : ∀ (t : Fin grid0.N) (a : Fin 4), win0_1.index t a = 0)
theorem index0_2 : ∀ (t : Fin cfg0.N) (a : Fin 4), win0_2.index t a = 0 :=
  (by decide +kernel : ∀ (t : Fin grid0.N) (a : Fin 4), win0_2.index t a = 0)

/-- The running sums after the last point, as contents of the two result arrays. -/
abbrev lastSum (c : Dev nD) : Buf (Elt Ideal) ((c : Thread nD τ).loc main_v0_0) :=
  (acc (F := Ideal) V c tLast.val tLast.isLt).1
abbrev lastSq (c : Dev nD) : Buf (Elt Ideal) ((c : Thread nD τ).loc main_v0_1) :=
  (acc (F := Ideal) V c tLast.val tLast.isLt).2

/-- The one write-back of the first result window writes the running sum: its block at zero offsets is the array. -/
theorem wrote_sum (c : Dev nD) (t : Fin cfg0.N) (hf : (cfg0.win 1).flush t = true) :
    (dat0 (F := Ideal) V c).flushed 1 t = ((cfg0.win 1).blk t).view.read (Elt Ideal) (lastSum V c) := by
  have hN : cfg0.N = 64 := N_0
  have h63 : t.val = 63 := by have := (flush0_1 t).mp hf; have := t.isLt; omega
  obtain rfl : t = tLast := Fin.ext h63
  show (cfg0.win 1).cut (grid0.coords tLast) ((dat0 (F := Ideal) V c).after 1 tLast) = _
  rw [after0_1]
  have hz : (fun a => win0_1.index tLast a * main_v0_0.ty.shape.size a) = fun _ => 0 :=
    funext fun a => by rw [index0_1 tLast a]; exact Nat.zero_mul _
  exact (Memref.read_access_unit_zero (Elt Ideal) main_v0_0 hz (fun a => by rw [congrFun hz a]; simp) (lastSum V c)).symm

/-- Likewise the second result window and the running sum of squares. -/
theorem wrote_sq (c : Dev nD) (t : Fin cfg0.N) (hf : (cfg0.win 2).flush t = true) :
    (dat0 (F := Ideal) V c).flushed 2 t = ((cfg0.win 2).blk t).view.read (Elt Ideal) (lastSq V c) := by
  have hN : cfg0.N = 64 := N_0
  have h63 : t.val = 63 := by have := (flush0_2 t).mp hf; have := t.isLt; omega
  obtain rfl : t = tLast := Fin.ext h63
  show (cfg0.win 2).cut (grid0.coords tLast) ((dat0 (F := Ideal) V c).after 2 tLast) = _
  rw [after0_2]
  have hz : (fun a => win0_2.index tLast a * main_v0_1.ty.shape.size a) = fun _ => 0 :=
    funext fun a => by rw [index0_2 tLast a]; exact Nat.zero_mul _
  exact (Memref.read_access_unit_zero (Elt Ideal) main_v0_1 hz (fun a => by rw [congrFun hz a]; simp) (lastSq V c)).symm

/-- The first result array ends at the running sum after the last point: that point's block, uncut and at zero
    offsets, is the whole array. -/
theorem sumArr_eq (c : Dev nD) : sumArr V c = lastSum V c :=
  (dat0 (F := Ideal) V c).arrAt_eq_of_cover 1 (lastSum V c) (wrote_sum V c) fun i =>
    ⟨tLast, (flush0_1 tLast).mpr rfl, by
      show i ∈ ((View.whole main_v0_0).slice (win0_1.rect tLast)).set
      rw [View.set_slice_whole, Rect.mem_set_unit]
      intro a
      have hi : (i a : Nat) < S1x64x1x1.size a := (i a).isLt
      show win0_1.index tLast a * S1x64x1x1.size a ≤ (i a : Nat)
        ∧ (i a : Nat) < win0_1.index tLast a * S1x64x1x1.size a + S1x64x1x1.size a
      rw [index0_1 tLast a]
      omega⟩

/-- The second result array likewise. -/
theorem sqArr_eq (c : Dev nD) : sqArr V c = lastSq V c :=
  (dat0 (F := Ideal) V c).arrAt_eq_of_cover 2 (lastSq V c) (wrote_sq V c) fun i =>
    ⟨tLast, (flush0_2 tLast).mpr rfl, by
      show i ∈ ((View.whole main_v0_1).slice (win0_2.rect tLast)).set
      rw [View.set_slice_whole, Rect.mem_set_unit]
      intro a
      have hi : (i a : Nat) < S1x64x1x1.size a := (i a).isLt
      show win0_2.index tLast a * S1x64x1x1.size a ≤ (i a : Nat)
        ∧ (i a : Nat) < win0_2.index tLast a * S1x64x1x1.size a + S1x64x1x1.size a
      rw [index0_2 tLast a]
      omega⟩

/-- The first result array ends at the channel sums of the input, the second at the channel sums of its squares. -/
theorem stats_sums (c : Dev nD) (j : S1x64x1x1.Idx) :
    sumArr V c j = Cert.Stats.colSum (xin0 V c) (chanV j)
    ∧ sqArr V c j = Cert.Stats.colSum (fun i => xin0 V c i * xin0 V c i) (chanV j) := by
  obtain ⟨h1, h2⟩ := acc_sums V c tLast.val tLast.isLt j
  exact ⟨(congrFun (sumArr_eq V c) j).trans (h1.trans (sum_upto_last (xin0 V c) j)),
    (congrFun (sqArr_eq V c) j).trans (h2.trans (sum_upto_last (fun i => xin0 V c i * xin0 V c i) j))⟩

end Cert.KernelIdeal.Hand

end
-- ==== Proof.NormValue.lean ====
/-
  What the normalising region leaves in its result array, at the extended reals: at every index the input there minus
  the first per-channel vector at the index's channel, divided by the second per-channel vector at that channel.

  Point `t` writes back the block of batch `t / 2`, rows `128 · (t % 2) … + 127`; the 64 blocks tile the array, and every
  block is the same index-by-index function of the arrays, so the array ends at that function.
-/
import proofs.«111102_j85839216378453_1_alg».proof.Proof.Norm
import proofs.«111102_j85839216378453_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open scoped BigOperators

-- the TensorCore's buffer contents when the region is entered, at the extended reals
variable (V : (c : Dev nD) → (b : Ref sig .tc) → Buf (Elt Ideal) ((c : Thread nD τ).loc b))

/-- The per-channel vector's index that an index of the array reads: its channel, the unit axes at `0`. -/
def chanVec (i : S32x64x256x256.Idx) : S1x64x1x1.Idx :=
  ValueIdx.ix4 (0 : Fin 1) (⟨(i 1).val, (i 1).isLt⟩ : Fin 64) (0 : Fin 1) (0 : Fin 1)

/-- The three input arrays as the region finds them and the result array as it leaves it, as functions of an index. -/
abbrev xin1 (c : Dev nD) : S32x64x256x256.Idx → EReal := V c main_arg0
abbrev muArr (c : Dev nD) : S1x64x1x1.Idx → EReal := V c main_v2
abbrev sdArr (c : Dev nD) : S1x64x1x1.Idx → EReal := V c main_v13
abbrev outArr (c : Dev nD) : S32x64x256x256.Idx → EReal := (dat1 (F := Ideal) V c).arrAt 3 cfg1.N

/-! ## The body's payload at an index of the block -/

/-- The zero offsets of the body's whole-buffer accesses, as a constant function. -/
theorem norm_zeroOff : (![0, 0, 0, 0] : Fin 4 → Nat) = fun _ => 0 := funext fun a => by fin_cases a <;> rfl

/-- A per-channel vector broadcast along the block, read at an index of the block: the vector at the index's channel. -/
theorem norm_bcast_apply (x : Vec Ideal S1x64x1x1 .f32) (y : S1x64x128x256.Idx) :
    broadcastTo S1x64x128x256 x broadcasts_S1x64x1x1_S1x64x128x256 y
      = x (ValueIdx.ix4 (0 : Fin 1) (y 1) (0 : Fin 1) (0 : Fin 1)) := by
  refine broadcastTo_apply x _ y _ fun a => ?_
  match a with
  | ⟨0, _⟩ => rfl
  | ⟨1, _⟩ => rfl
  | ⟨2, _⟩ => rfl
  | ⟨3, _⟩ => rfl

/-- The stored payload at an index `y` of the block: the block there minus the first vector at `y`'s channel, over the
    second vector at that channel. -/
theorem norm_pay_apply (x0 : Vec Ideal S1x64x128x256 .f32) (x1 x2 : Vec Ideal S1x64x1x1 .f32) (y : S1x64x128x256.Idx) :
    k1_pay1 x0 x1 x2 y
      = Ideal.div (x0 y - x1 (ValueIdx.ix4 (0 : Fin 1) (y 1) (0 : Fin 1) (0 : Fin 1)))
          (x2 (ValueIdx.ix4 (0 : Fin 1) (y 1) (0 : Fin 1) (0 : Fin 1))) := by
  unfold k1_pay1
  simp only [shapeCast_self]
  rw [ValueIdx.divf_apply, ValueIdx.subf_apply, norm_bcast_apply, norm_bcast_apply]

/-! ## The blocks -/

/-- The block indices at point `t`, decided over the 64 points: the input and the result block are batch `t / 2`, row half
    `t % 2`, all channels and columns; the two per-channel vectors are one block each, index `0` on every axis. -/
theorem norm_blockIdx : ∀ t : Fin cfg1.N,
    win1_0.index t (0 : Fin 4) = t.val / 2 ∧ win1_0.index t (1 : Fin 4) = 0
    ∧ win1_0.index t (2 : Fin 4) = t.val % 2 ∧ win1_0.index t (3 : Fin 4) = 0
    ∧ win1_3.index t (0 : Fin 4) = t.val / 2 ∧ win1_3.index t (1 : Fin 4) = 0
    ∧ win1_3.index t (2 : Fin 4) = t.val % 2 ∧ win1_3.index t (3 : Fin 4) = 0
    ∧ win1_1.index t (0 : Fin 4) = 0 ∧ win1_1.index t (1 : Fin 4) = 0
    ∧ win1_1.index t (2 : Fin 4) = 0 ∧ win1_1.index t (3 : Fin 4) = 0
    ∧ win1_2.index t (0 : Fin 4) = 0 ∧ win1_2.index t (1 : Fin 4) = 0
    ∧ win1_2.index t (2 : Fin 4) = 0 ∧ win1_2.index t (3 : Fin 4) = 0 :=
  (by decide +kernel : ∀ t : Fin grid1.N, _)

/-- The one array every block is a restriction of: the input minus the first vector at the index's channel, over the
    second vector at that channel. -/
def normArr (c : Dev nD) : S32x64x256x256.Idx → EReal := fun i =>
  Ideal.div (xin1 V c i - muArr V c (chanVec i)) (sdArr V c (chanVec i))

/-- What point `t` writes back is its block of `normArr`: the input block sits where the result block does, and both
    vectors' single block is the whole vector, read at the channel of the result block's index. -/
theorem norm_flushed (c : Dev nD) (t : Fin cfg1.N) :
    (dat1 (F := Ideal) V c).flushed 3 t = ((cfg1.win 3).blk t).view.read (Elt Ideal) (normArr V c) := by
  show (cfg1.win 3).cut (grid1.coords t) ((dat1 V c).after 3 t) = _
  rw [after1_3]
  unfold out1
  rw [View.canon_unit_zero norm_zeroOff]
  simp only [View.ld_unit_zero (S := S1x64x128x256) norm_zeroOff, View.ld_unit_zero (S := S1x64x1x1) norm_zeroOff]
  funext y
  refine (norm_pay_apply (iblk1 V c 0 t) (iblk1 V c 1 t) (iblk1 V c 2 t) y).trans ?_
  obtain ⟨a0, a1, a2, a3, o0, o1, o2, o3, m0, m1, m2, m3, s0, s1, s2, s3⟩ := norm_blockIdx t
  show Ideal.div (xin1 V c (((cfg1.win 0).blk t).view.emb y)
        - muArr V c (((cfg1.win 1).blk t).view.emb (ValueIdx.ix4 (0 : Fin 1) (y 1) (0 : Fin 1) (0 : Fin 1))))
      (sdArr V c (((cfg1.win 2).blk t).view.emb (ValueIdx.ix4 (0 : Fin 1) (y 1) (0 : Fin 1) (0 : Fin 1))))
    = Ideal.div (xin1 V c (((cfg1.win 3).blk t).view.emb y)
        - muArr V c (chanVec (((cfg1.win 3).blk t).view.emb y)))
      (sdArr V c (chanVec (((cfg1.win 3).blk t).view.emb y)))
  have h0 : ((cfg1.win 0).blk t).view.emb y = ((cfg1.win 3).blk t).view.emb y := by
    funext a; apply Fin.ext
    match a with
    | ⟨0, _⟩ => show win1_0.index t (0 : Fin 4) * 1 + 1 * (y 0).val = win1_3.index t (0 : Fin 4) * 1 + 1 * (y 0).val; omega
    | ⟨1, _⟩ => show win1_0.index t (1 : Fin 4) * 64 + 1 * (y 1).val = win1_3.index t (1 : Fin 4) * 64 + 1 * (y 1).val; omega
    | ⟨2, _⟩ => show win1_0.index t (2 : Fin 4) * 128 + 1 * (y 2).val = win1_3.index t (2 : Fin 4) * 128 + 1 * (y 2).val; omega
    | ⟨3, _⟩ => show win1_0.index t (3 : Fin 4) * 256 + 1 * (y 3).val = win1_3.index t (3 : Fin 4) * 256 + 1 * (y 3).val; omega
  have h1 : ((cfg1.win 1).blk t).view.emb (ValueIdx.ix4 (0 : Fin 1) (y 1) (0 : Fin 1) (0 : Fin 1))
      = chanVec (((cfg1.win 3).blk t).view.emb y) := by
    funext a; apply Fin.ext
    match a with
    | ⟨0, _⟩ => show win1_1.index t (0 : Fin 4) * 1 + 1 * (0 : Fin 1).val = (0 : Fin 1).val; omega
    | ⟨1, _⟩ => show win1_1.index t (1 : Fin 4) * 64 + 1 * (y 1).val = win1_3.index t (1 : Fin 4) * 64 + 1 * (y 1).val; omega
    | ⟨2, _⟩ => show win1_1.index t (2 : Fin 4) * 1 + 1 * (0 : Fin 1).val = (0 : Fin 1).val; omega
    | ⟨3, _⟩ => show win1_1.index t (3 : Fin 4) * 1 + 1 * (0 : Fin 1).val = (0 : Fin 1).val; omega
  have h2 : ((cfg1.win 2).blk t).view.emb (ValueIdx.ix4 (0 : Fin 1) (y 1) (0 : Fin 1) (0 : Fin 1))
      = chanVec (((cfg1.win 3).blk t).view.emb y) := by
    funext a; apply Fin.ext
    match a with
    | ⟨0, _⟩ => show win1_2.index t (0 : Fin 4) * 1 + 1 * (0 : Fin 1).val = (0 : Fin 1).val; omega
    | ⟨1, _⟩ => show win1_2.index t (1 : Fin 4) * 64 + 1 * (y 1).val = win1_3.index t (1 : Fin 4) * 64 + 1 * (y 1).val; omega
    | ⟨2, _⟩ => show win1_2.index t (2 : Fin 4) * 1 + 1 * (0 : Fin 1).val = (0 : Fin 1).val; omega
    | ⟨3, _⟩ => show win1_2.index t (3 : Fin 4) * 1 + 1 * (0 : Fin 1).val = (0 : Fin 1).val; omega
  rw [h0, h1, h2]

/-! ## From the blocks to the array -/

/-- An index of the array is in point `t`'s block iff each coordinate is in the block's range on its axis. -/
theorem norm_mem_blk (t : Fin cfg1.N) (i : S32x64x256x256.Idx) :
    i ∈ ((cfg1.win 3).blk t).view.set ↔ ∀ a : Fin 4, win1_3.index t a * S1x64x128x256.size a ≤ (i a).val
      ∧ (i a).val < win1_3.index t a * S1x64x128x256.size a + S1x64x128x256.size a := by
  show i ∈ ((View.whole main_v14).slice (win1_3.rect t)).set ↔ _
  rw [View.set_slice_whole, Rect.mem_set_unit]
  exact Iff.rfl

/-- The 64 blocks tile the array: index `i` lies in the block of point `2 · (i 0) + (i 2) / 128`, which is written back. -/
theorem norm_cover (i : S32x64x256x256.Idx) :
    ∃ t : Fin cfg1.N, (cfg1.win 3).flush t = true ∧ i ∈ ((cfg1.win 3).blk t).view.set := by
  have hi0 : (i 0).val < 32 := (i 0).isLt
  have hi1 : (i 1).val < 64 := (i 1).isLt
  have hi2 : (i 2).val < 256 := (i 2).isLt
  have hi3 : (i 3).val < 256 := (i 3).isLt
  have hN : cfg1.N = 64 := by decide
  obtain ⟨t, ht⟩ : ∃ t : Fin cfg1.N, t.val = (i 0).val * 2 + (i 2).val / 128 :=
    ⟨⟨(i 0).val * 2 + (i 2).val / 128, by rw [hN]; omega⟩, rfl⟩
  obtain ⟨a0, a1, a2, a3, o0, o1, o2, o3, m0, m1, m2, m3, s0, s1, s2, s3⟩ := norm_blockIdx t
  refine ⟨t, flush1_3 t, ?_⟩
  rw [norm_mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 64 ≤ (i 1).val ∧ (i 1).val < win1_3.index t (1 : Fin 4) * 64 + 64; omega
  | ⟨2, _⟩ => show win1_3.index t (2 : Fin 4) * 128 ≤ (i 2).val ∧ (i 2).val < win1_3.index t (2 : Fin 4) * 128 + 128; omega
  | ⟨3, _⟩ => show win1_3.index t (3 : Fin 4) * 256 ≤ (i 3).val ∧ (i 3).val < win1_3.index t (3 : Fin 4) * 256 + 256; omega

/-- Every block is written back as its block of `normArr` and the blocks cover the array, so the array ends at `normArr`. -/
theorem outArr_eq_normArr (c : Dev nD) : outArr V c = normArr V c :=
  (dat1 (F := Ideal) V c).arrAt_eq_of_cover 3 (normArr V c) (fun t _ => norm_flushed V c t) norm_cover

/-- The result array after the region, index by index. -/
theorem norm_value (c : Dev nD) (i : S32x64x256x256.Idx) :
    outArr V c i = Ideal.div (xin1 V c i - muArr V c (chanVec i)) (sdArr V c (chanVec i)) := by
  rw [outArr_eq_normArr]
  rfl

end Cert.KernelIdeal.Hand

end
-- ==== Proof.KernelValue.lean ====
/-
  The kernel program's result as the running-sums formula `Cert.Stats.GK` of the input array, at the extended reals.

  The statistics region leaves the channel sums `S` and the channel sums of squares `Q` of the input; the host stretch
  makes of them the mean `μ = S / n` and the divisor `√(max ((Q - (n · μ) · μ) / (n - 1)) ε + ε)`; the normalising region
  leaves `(x - μ) / divisor`, each index reading its channel's entries. The input array is never written, so both regions
  read the launch's input.
-/
import proofs.«111102_j85839216378453_1_alg».proof.Proof.Run
import proofs.«111102_j85839216378453_1_alg».proof.Proof.StatsValue
import proofs.«111102_j85839216378453_1_alg».proof.Proof.NormValue
import proofs.«111102_j85839216378453_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The launch's input array as a function of an index. -/
abbrev xin (c : Dev nD) : S32x64x256x256.Idx → EReal := m ((c.tc : Thread nD τ).loc main_arg0)

/-! ## The arrays the regions read are the launch's input and the statistics region's sums -/

theorem xin0_eq (c : Dev nD) : xin0 (V0 m ρ) c = xin m c := rfl

theorem xin1_eq (c : Dev nD) : xin1 (V2 m ρ) c = xin m c := by
  show W2 m ρ c (Proc.devRef .tc main_arg0) = _
  exact (W2_main_arg0 m ρ c).trans (((W1_arr m ρ c 0).trans (((dat0 (V0 m ρ) c).arrAt_in 0 rfl _).trans (A_eq0 (V0 m ρ) c 0))).trans rfl)

/-- The two sums as the host stretch finds them. -/
theorem V1_sum (c : Dev nD) : (V1 m ρ c main_v0_0 : S1x64x1x1.Idx → EReal) = sumArr (V0 m ρ) c := W1_arr m ρ c 1
theorem V1_sq (c : Dev nD) : (V1 m ρ c main_v0_1 : S1x64x1x1.Idx → EReal) = sqArr (V0 m ρ) c := W1_arr m ρ c 2

/-! ## The host stretch -/

/-- The mean vector: the sums divided by `n`. -/
theorem host_mean (c : Dev nD) :
    (V2 m ρ c main_v2 : S1x64x1x1.Idx → EReal)
      = Host.divf (F := Ideal) (V1 m ρ c main_v0_0) (broadcastInDim S1x64x1x1 ![] bcast_S_S1x64x1x1 (constant (F := Ideal) S_ .f32 0x4A000000#32)) := by
  dsimp only [V2, W2, hostOps1]; after_results <;> rfl

/-- The divisor vector: from the sums of squares and the mean. -/
theorem host_std (c : Dev nD) :
    (V2 m ρ c main_v13 : S1x64x1x1.Idx → EReal)
      = Host.sqrt (F := Ideal) (addf (maximumf (Host.divf (subf (V1 m ρ c main_v0_1)
          (mulf (mulf (broadcastInDim S1x64x1x1 ![] bcast_S_S1x64x1x1 (constant (F := Ideal) S_ .f32 0x4A000000#32)) (V2 m ρ c main_v2)) (V2 m ρ c main_v2)))
          (broadcastInDim S1x64x1x1 ![] bcast_S_S1x64x1x1 (constant (F := Ideal) S_ .f32 0x49FFFFF8#32)))
          (broadcastInDim S1x64x1x1 ![] bcast_S_S1x64x1x1 (constant (F := Ideal) S_ .f32 0x322BCC77#32)))
          (broadcastInDim S1x64x1x1 ![] bcast_S_S1x64x1x1 (constant (F := Ideal) S_ .f32 0x322BCC77#32))) := by
  dsimp only [V2, W2, hostOps1]; after_results <;> rfl

/-! ## The two per-channel vectors at an index -/

/-- The mean vector at an index is the mean of the index's channel. -/
theorem mean_at (c : Dev nD) (j : S1x64x1x1.Idx) :
    muArr (V2 m ρ) c j = Cert.Stats.mean (xin m c) (chanV j) := by
  show (V2 m ρ c main_v2 : S1x64x1x1.Idx → EReal) j = _
  rw [host_mean, V1_sum]
  show Ideal.div (sumArr (V0 m ρ) c j) _ = _
  rw [(stats_sums (V0 m ρ) c j).1, xin0_eq]
  rfl

/-- The divisor vector at an index is `spread` of the running-sums variance of the index's channel. -/
theorem std_at (c : Dev nD) (j : S1x64x1x1.Idx) :
    sdArr (V2 m ρ) c j = Cert.Stats.spread (Cert.Stats.varK (xin m c) (chanV j)) := by
  show (V2 m ρ c main_v13 : S1x64x1x1.Idx → EReal) j = _
  rw [host_std, V1_sq]
  show Ideal.sqrt (max (Ideal.div (sqArr (V0 m ρ) c j
      - Ideal.ofBits .f32 0x4A000000#32 * muArr (V2 m ρ) c j * muArr (V2 m ρ) c j) (Ideal.ofBits .f32 0x49FFFFF8#32))
      (Ideal.ofBits .f32 0x322BCC77#32) + Ideal.ofBits .f32 0x322BCC77#32) = _
  rw [(stats_sums (V0 m ρ) c j).2, mean_at, xin0_eq]
  rfl

/-! ## The result -/

/-- An array index and its per-channel vector index have the same channel. -/
theorem chanV_chanVec (i : S32x64x256x256.Idx) : chanV (chanVec i) = Cert.Stats.chanOf i := rfl

/-- The result array after the run is `GK` of the launch's input. -/
theorem result_eq (c : Dev nD) : outArr (V2 m ρ) c = Cert.Stats.GK (xin m c) := by
  funext i
  rw [norm_value, xin1_eq, mean_at, std_at, chanV_chanVec]
  rfl

/-- Every weakly fair execution of the kernel program ends with its result at `GK` of the input, the input unchanged. -/
theorem run_value : θ_run (defs (F := Ideal)) (onTc (τ := τ) (main (F := Ideal))) ⟨m, fun _ => 0, ρ⟩ (fun r => ∀ c : Dev nD,
      r.2.mem ((c.tc : Thread nD τ).loc main_v14) = Cert.Stats.GK (m ((c.tc : Thread nD τ).loc main_arg0))
      ∧ r.2.mem ((c.tc : Thread nD τ).loc main_arg0) = m ((c.tc : Thread nD τ).loc main_arg0)) :=
  (θ_run defs _ _).mono (fun _ h c =>
      ⟨(h c _ (mem_uc main_v14 (by decide))).trans ((W3_main_v14 m ρ c).trans (result_eq m ρ c)),
       (h c _ (mem_uc main_arg0 (by decide))).trans (W3_main_arg0 m ρ c)⟩) (run m ρ)

end Cert.KernelIdeal.Hand

end
-- ==== Proof.RefValue.lean ====
/-
  The reference's result as the two-pass formula `Cert.Stats.GR` of the input array.

  The reference moves the channel axis last, flattens the other three axes into `n = 2²¹` rows, takes each column's mean,
  subtracts it from every row, sums the squares of the differences down each column, divides by `n - 1`, clamps at `ε`,
  adds `ε`, takes the root, and finally divides the centred input by that, channel by channel. A column's sum over the
  rows is the sum over the channel's indices of the input: the row number is `(b · 256 + h) · 256 + w`.
-/
import proofs.«111102_j85839216378453_1_alg».proof.Proof.Gen.ReferenceIdeal.Read
import proofs.«111102_j85839216378453_1_alg».proof.Proof.Spec
import Idealize.ShloMosaic.Lib.ValueIdx
import Idealize.ShloMosaic.PureOps.Ideal.Laws

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open scoped BigOperators

/-! ## Rows of a column are the indices of a channel -/

/-- Row `k = (b · 256 + h) · 256 + w` of column `c` is the input's index `(b, c, h, w)`. -/
def rowIx (c : Fin 64) (k : Fin 2097152) : Cert.Stats.SX.Idx :=
  ix4 (⟨k.val / 65536, by have := k.isLt; omega⟩ : Fin 32) c
    (⟨k.val / 256 % 256, by have := k.isLt; omega⟩ : Fin 256) (⟨k.val % 256, by have := k.isLt; omega⟩ : Fin 256)

/-- The row an index `(b, c, h, w)` lies in: `(b · 256 + h) · 256 + w`. -/
def rowOf (i : Cert.Stats.SX.Idx) : Fin 2097152 :=
  ⟨((i 0).val * 256 + (i 2).val) * 256 + (i 3).val, by
    have h0 : (i 0).val < 32 := (i 0).isLt
    have h2 : (i 2).val < 256 := (i 2).isLt
    have h3 : (i 3).val < 256 := (i 3).isLt
    omega⟩

/-- A sum down the rows of column `c` is the sum over the indices of channel `c`: row and index determine each other. -/
theorem colSum_rows (f : Cert.Stats.SX.Idx → EReal) (c : Fin 64) :
    ∑ k : Fin 2097152, f (rowIx c k) = Cert.Stats.colSum f c := by
  unfold Cert.Stats.colSum
  refine Finset.sum_nbij' (rowIx c) rowOf ?_ ?_ ?_ ?_ ?_
  · intro k _
    simp only [Cert.Stats.chan, Finset.mem_filter, Finset.mem_univ, true_and]
    exact Fin.ext rfl
  · intro i _
    exact Finset.mem_univ _
  · intro k _
    have hk := k.isLt
    apply Fin.ext
    show (k.val / 65536 * 256 + k.val / 256 % 256) * 256 + k.val % 256 = k.val
    omega
  · intro i hi
    simp only [Cert.Stats.chan, Finset.mem_filter, Finset.mem_univ, true_and] at hi
    have h0 : (i 0).val < 32 := (i 0).isLt
    have h2 : (i 2).val < 256 := (i 2).isLt
    have h3 : (i 3).val < 256 := (i 3).isLt
    have h1 : c.val = (i 1).val := (congrArg Fin.val hi).symm
    funext a
    match a with
    | ⟨0, _⟩ =>
      apply Fin.ext
      show (((i 0).val * 256 + (i 2).val) * 256 + (i 3).val) / 65536 = (i 0).val
      omega
    | ⟨1, _⟩ => exact Fin.ext h1
    | ⟨2, _⟩ =>
      apply Fin.ext
      show (((i 0).val * 256 + (i 2).val) * 256 + (i 3).val) / 256 % 256 = (i 2).val
      omega
    | ⟨3, _⟩ =>
      apply Fin.ext
      show (((i 0).val * 256 + (i 2).val) * 256 + (i 3).val) % 256 = (i 3).val
      omega
  · intro k _
    rfl

/-! ## The reference's stages, column by column -/

/-- The input's index read by row `k` of column `c` of the flattened, channel-last array. -/
theorem idx_row (c : S64.Idx) (d : Fin 64) (h : (c 0).val = d.val) (k : Fin 2097152) :
    Read.idx_main_v0 (Read.idx_main_v1 (Read.idx_main_v2 c k)) = rowIx d k := by
  have hk := k.isLt
  have hd := d.isLt
  funext a
  match a with
  | ⟨0, _⟩ =>
    apply Fin.ext
    show (k.val * 64 + (c 0).val) / 4194304 = k.val / 65536
    omega
  | ⟨1, _⟩ =>
    apply Fin.ext
    show (k.val * 64 + (c 0).val) % 64 = d.val
    omega
  | ⟨2, _⟩ =>
    apply Fin.ext
    show (k.val * 64 + (c 0).val) / 16384 % 256 = k.val / 256 % 256
    omega
  | ⟨3, _⟩ =>
    apply Fin.ext
    show (k.val * 64 + (c 0).val) / 64 % 256 = k.val % 256
    omega

/-- The flattened array at row `k`, column `c` is the input at `rowIx c k`. -/
theorem flat_row (x : (⟨S32x64x256x256, .f32⟩ : BufTy).Contents (Elt Ideal)) (c : S64.Idx) (d : Fin 64)
    (h : (c 0).val = d.val) (k : Fin 2097152) :
    Read.val_main_v1 (F := Ideal) x (Read.idx_main_v2 c k) = x (rowIx d k) := by
  rw [Read.val_main_v1_apply, Read.val_main_v0_apply, idx_row c d h k]

/-- Column `c`'s mean is the channel's mean. -/
theorem mean_at (x : (⟨S32x64x256x256, .f32⟩ : BufTy).Contents (Elt Ideal)) (c : S64.Idx) (d : Fin 64)
    (h : (c 0).val = d.val) :
    Read.val_main_v4 (F := Ideal) x c = Cert.Stats.mean x d := by
  rw [Read.val_main_v4_apply, Read.val_main_v2_apply, Read.val_main_v3_apply, Read.val_main_cst_0_apply,
    Read.val_main_cst_apply]
  simp only [flat_row x c d h, Ideal.hostDivf_def, Ideal.ofBits_def, Ideal.ofBits_zero_f32, zero_add]
  rw [colSum_rows (fun i => x i) d]
  rfl

/-- The mean broadcast back over the rows is read at the row's column. -/
theorem idx_col (c : S64.Idx) (k : Fin 2097152) :
    Read.idx_main_v5 (Read.idx_main_v6 (Read.idx_main_v9 c k)) = c := by
  funext a
  match a with
  | ⟨0, _⟩ => rfl

/-- Column `c`'s sum of squared differences from its mean is the channel's two-pass `V`. -/
theorem var_at (x : (⟨S32x64x256x256, .f32⟩ : BufTy).Contents (Elt Ideal)) (c : S64.Idx) (d : Fin 64)
    (h : (c 0).val = d.val) :
    Read.val_main_v9 (F := Ideal) x c = Cert.Stats.varR x d := by
  rw [Read.val_main_v9_apply, Read.val_main_cst_1_apply]
  have e : ∀ k : Fin 2097152, Read.val_main_v8 (F := Ideal) x (Read.idx_main_v9 c k)
      = (x (rowIx d k) - Cert.Stats.mean x d) * (x (rowIx d k) - Cert.Stats.mean x d) := by
    intro k
    rw [Read.val_main_v8_apply, Read.val_main_v7_apply, Read.val_main_v6_apply, Read.val_main_v5_apply, idx_col,
      mean_at x c d h]
    rw [show Read.val_main_v1 (F := Ideal) x (Read.idx_main_v9 c k) = x (rowIx d k) from flat_row x c d h k]
    rfl
  simp only [e, Ideal.ofBits_def, Ideal.ofBits_zero_f32, zero_add]
  exact colSum_rows (fun i => (x i - Cert.Stats.mean x d) * (x i - Cert.Stats.mean x d)) d

/-- Column `c`'s divisor is the channel's: `√(max (V / (n - 1)) ε + ε)`. -/
theorem spread_at (x : (⟨S32x64x256x256, .f32⟩ : BufTy).Contents (Elt Ideal)) (c : S64.Idx) (d : Fin 64)
    (h : (c 0).val = d.val) :
    Read.val_main_v16 (F := Ideal) x c = Cert.Stats.spread (Cert.Stats.varR x d) := by
  rw [Read.val_main_v16_apply, Read.val_main_v15_apply, Read.val_main_v13_apply, Read.val_main_v11_apply,
    Read.val_main_v14_apply, Read.val_main_v12_apply, Read.val_main_v10_apply, Read.val_main_cst_4_apply,
    Read.val_main_cst_3_apply, Read.val_main_cst_2_apply, var_at x c d h]
  rfl

/-! ## The result -/

/-- The per-channel vectors broadcast back over the input's shape are read at the index's channel. -/
theorem idx_chan_mean (i : S32x64x256x256.Idx) :
    (Read.idx_main_v17 (Read.idx_main_v18 i) 0).val = (Cert.Stats.chanOf i).val := by
  show ((0 * 64 + (i 1).val) * 1 + 0) * 1 + 0 = (i 1).val
  omega

theorem idx_chan_spread (i : S32x64x256x256.Idx) :
    (Read.idx_main_v20 (Read.idx_main_v21 i) 0).val = (Cert.Stats.chanOf i).val := by
  show ((0 * 64 + (i 1).val) * 1 + 0) * 1 + 0 = (i 1).val
  omega

/-- The reference's result is `GR` of its input. -/
theorem result_eq (x : (⟨S32x64x256x256, .f32⟩ : BufTy).Contents (Elt Ideal)) :
    Read.val_main_v22 (F := Ideal) x = Cert.Stats.GR x := by
  funext i
  rw [Read.val_main_v22_apply, Read.val_main_v19_apply, Read.val_main_v18_apply, Read.val_main_v17_apply,
    Read.val_main_v21_apply, Read.val_main_v20_apply, mean_at x _ _ (idx_chan_mean i),
    spread_at x _ _ (idx_chan_spread i)]
  rfl

/-- Every weakly fair execution of the reference ends with its result at `GR` of the input, the input unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = Cert.Stats.GR (m ((c.tc : Thread nD τ).loc main_arg0))
      ∧ r.2.mem ((c.tc : Thread nD τ).loc main_arg0) = m ((c.tc : Thread nD τ).loc main_arg0) :=
  (θ_run (defs (F := Ideal)) _ _).mono
    (fun _ h c => ⟨(h c).1.trans ((Read.val_main_v22_eq _).trans (result_eq _)), (h c).2⟩)
    (Cert.ReferenceIdeal.Value.run (F := Ideal) m ρ)

end Cert.ReferenceIdeal.Hand

end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.Algebra.lean ====
/-
  The law that joins the two sides: for an input whose every entry is a real number, the variance computed from the two
  running sums is the two-pass variance, so `GK = GR`.

  For a channel `c` with `S = ∑_c x`, `Q = ∑_c x²`, `μ = S / n` and `n = 2²¹` the number of the channel's indices:
  `∑_c (x - μ)² = Q - 2 μ S + n μ² = Q - (n μ) μ`, because `n μ = S`.
-/
import proofs.«111102_j85839216378453_1_alg».proof.Proof.Spec
import proofs.«111102_j85839216378453_1_alg».proof.Proof.LibAllReal

noncomputable section

namespace Cert.Stats

open Idealize.ShloMosaic
open scoped BigOperators

/-! ## The count of a channel's indices -/

/-- The input has `32 · 64 · 256 · 256 = 64 · 2²¹` indices. -/
theorem card_idx_SX : Fintype.card SX.Idx = 64 * 2097152 := by
  rw [Shape.card_idx]
  simp [Shape.numel, Fin.prod_univ_four]

/-- An index with its channel coordinate replaced by `c`. -/
def setChan (c : Fin 64) (i : SX.Idx) : SX.Idx := Function.update i 1 ⟨c.val, c.isLt⟩

theorem chanOf_setChan (c : Fin 64) (i : SX.Idx) : chanOf (setChan c i) = c := by
  apply Fin.ext
  show ((Function.update i (1 : Fin 4) (⟨c.val, c.isLt⟩ : SX.Coord 1)) 1).val = c.val
  rw [Function.update_self]

theorem setChan_setChan (c c' : Fin 64) (i : SX.Idx) : setChan c (setChan c' i) = setChan c i :=
  Function.update_idem _ _ _

theorem setChan_chanOf (i : SX.Idx) : setChan (chanOf i) i = i :=
  Function.update_eq_self (1 : Fin 4) i

theorem mem_chan {c : Fin 64} {i : SX.Idx} : i ∈ chan c ↔ chanOf i = c := by
  simp [chan]

/-- Any two channels have the same number of indices: replacing the channel coordinate is a bijection between them. -/
theorem card_chan_eq (c c' : Fin 64) : (chan c).card = (chan c').card := by
  refine Finset.card_bij' (fun i _ => setChan c' i) (fun i _ => setChan c i) ?_ ?_ ?_ ?_
  · intro i _; exact mem_chan.2 (chanOf_setChan c' i)
  · intro i _; exact mem_chan.2 (chanOf_setChan c i)
  · intro i hi; rw [setChan_setChan, ← mem_chan.1 hi, setChan_chanOf]
  · intro i hi; rw [setChan_setChan, ← mem_chan.1 hi, setChan_chanOf]

/-- A channel has `n = 2²¹` indices: the `64` channels partition the `64 · 2²¹` indices into classes of one size. -/
theorem card_chan (c : Fin 64) : (chan c).card = 2097152 := by
  have h1 : (Finset.univ : Finset SX.Idx).card = ∑ c' : Fin 64, (chan c').card :=
    Finset.card_eq_sum_card_fiberwise (f := chanOf) (fun i _ => Finset.mem_coe.2 (Finset.mem_univ _))
  rw [Finset.card_univ, card_idx_SX, Finset.sum_congr rfl (fun c' _ => card_chan_eq c' c)] at h1
  simp at h1
  omega

/-! ## From the extended reals to the reals -/

/-- The word `0x4A000000` of the 32-bit format denotes `n = 2²¹`. -/
theorem nE_eq : nE = ((2097152 : ℝ) : EReal) := by
  simp [nE, Ideal.ofBits, Ideal.ieee, -EReal.coe_mul]
  norm_num

/-- A finite sum of real numbers, taken in the extended reals, is their sum as real numbers. -/
theorem coe_finset_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum over a channel of an array of reals. -/
theorem colSum_coe (f : SX.Idx → ℝ) (c : Fin 64) :
    colSum (fun i => (f i : EReal)) c = ((∑ i ∈ chan c, f i : ℝ) : EReal) := by
  rw [colSum, coe_finset_sum]

/-- The mean over a channel of an array of reals. -/
theorem mean_coe (r : SX.Idx → ℝ) (c : Fin 64) :
    mean (fun i => (r i : EReal)) c = (((∑ i ∈ chan c, r i) / 2097152 : ℝ) : EReal) := by
  rw [mean, colSum_coe, nE_eq, Ideal.div_coe (by norm_num), ← EReal.coe_mul, mul_one_div]

/-! ## The identity over the reals -/

/-- Over the reals, for a finite family of `n` numbers with sum `S`, sum of squares `Q` and `μ = S / n`:
    `∑ (r - μ)² = Q - 2 μ S + n μ² = Q - (n μ) μ`, because `n μ = S`. -/
theorem sum_sq_sub_mean {ι : Type} (s : Finset ι) (r : ι → ℝ) (n : ℝ) (hn : n ≠ 0) (hcard : (s.card : ℝ) = n) :
    ∑ i ∈ s, (r i - (∑ j ∈ s, r j) / n) * (r i - (∑ j ∈ s, r j) / n)
      = (∑ i ∈ s, r i * r i) - n * ((∑ j ∈ s, r j) / n) * ((∑ j ∈ s, r j) / n) := by
  set μ : ℝ := (∑ j ∈ s, r j) / n with hμ
  have hS : ∑ j ∈ s, r j = n * μ := by rw [hμ]; field_simp
  have hexp : ∀ i, (r i - μ) * (r i - μ) = r i * r i - 2 * μ * r i + μ * μ := fun i => by ring
  simp only [hexp, Finset.sum_add_distrib, Finset.sum_sub_distrib, ← Finset.mul_sum, Finset.sum_const, nsmul_eq_mul,
    hcard, hS]
  ring

/-! ## The two variances, and the two results -/

/-- On an input of real numbers the variance from the two running sums is the two-pass variance. -/
theorem varK_eq_varR (x : SX.Idx → EReal) (hx : ∀ i, ∃ r : ℝ, x i = (r : EReal)) (c : Fin 64) :
    varK x c = varR x c := by
  choose r hr using hx
  obtain rfl : x = fun i => (r i : EReal) := funext hr
  have hcard : (((chan c).card : ℕ) : ℝ) = 2097152 := by rw [card_chan]; norm_num
  have hK : varK (fun i => (r i : EReal)) c
      = (((∑ i ∈ chan c, r i * r i) - 2097152 * ((∑ j ∈ chan c, r j) / 2097152) * ((∑ j ∈ chan c, r j) / 2097152) : ℝ)
          : EReal) := by
    have hsq : (fun i => ((r i : ℝ) : EReal) * (r i : EReal)) = fun i => ((r i * r i : ℝ) : EReal) :=
      funext fun i => (EReal.coe_mul _ _).symm
    show colSum (fun i => ((r i : ℝ) : EReal) * (r i : EReal)) c
      - nE * mean (fun i => (r i : EReal)) c * mean (fun i => (r i : EReal)) c = _
    rw [hsq, colSum_coe, mean_coe, nE_eq, ← EReal.coe_mul, ← EReal.coe_mul, ← EReal.coe_sub]
  have hR : varR (fun i => (r i : EReal)) c
      = ((∑ i ∈ chan c, (r i - (∑ j ∈ chan c, r j) / 2097152) * (r i - (∑ j ∈ chan c, r j) / 2097152) : ℝ) : EReal) := by
    have hdev : (fun i => (((r i : ℝ) : EReal) - mean (fun i => (r i : EReal)) c)
          * (((r i : ℝ) : EReal) - mean (fun i => (r i : EReal)) c))
        = fun i => (((r i - (∑ j ∈ chan c, r j) / 2097152) * (r i - (∑ j ∈ chan c, r j) / 2097152) : ℝ) : EReal) :=
      funext fun i => by rw [mean_coe, ← EReal.coe_sub, ← EReal.coe_mul]
    show colSum (fun i => (((r i : ℝ) : EReal) - mean (fun i => (r i : EReal)) c)
          * (((r i : ℝ) : EReal) - mean (fun i => (r i : EReal)) c)) c = _
    rw [hdev, colSum_coe]
  rw [hK, hR, sum_sq_sub_mean (chan c) r 2097152 (by norm_num) hcard]

/-- The two formulas agree on an input of real numbers. -/
theorem GK_eq_GR (x : SX.Idx → EReal) (hx : ∀ i, ∃ r : ℝ, x i = (r : EReal)) : GK x = GR x := by
  funext i
  show Ideal.div (x i - mean x (chanOf i)) (spread (varK x (chanOf i)))
    = Ideal.div (x i - mean x (chanOf i)) (spread (varR x (chanOf i)))
  rw [varK_eq_varR x hx (chanOf i)]

end Cert.Stats

end
-- ==== Proof.Finite.lean ====
/-
  The precondition says every entry of the input is a real number: `|x i| < +∞` at every index rules out both
  infinities.
-/
import proofs.«111102_j85839216378453_1_alg».proof.Pre_finite_inputs
import proofs.«111102_j85839216378453_1_alg».proof.Proof.Gen.Pre_finite_inputs
import Idealize.ShloMosaic.PureOps.Ideal
import Idealize.ShloMosaic.PureOps.Ideal.Laws
import Idealize.ShloMosaic.Lib.ReduceAll

noncomputable section

namespace Cert.Stats

open Idealize.ShloMosaic

/-- The shape of a scalar has exactly one index: there is no axis to choose a coordinate on. -/
instance subsingleton_scalarIdx : Subsingleton Cert.Pre_finite_inputs.S_.Idx :=
  ⟨fun _ _ => funext fun d => d.elim0⟩

/-- The word `0x7F800000` of the 32-bit format denotes `+∞`. -/
theorem ofBits_f32_posInf : Ideal.ofBits .f32 0x7F800000#32 = (⊤ : EReal) := by
  simp [Ideal.ofBits, Ideal.ieee]

/-- An extended real whose absolute value `max a (-a)` lies strictly below `+∞` is a real number: at `a = +∞` the
    maximum is `a` itself, at `a = -∞` it is `-a = +∞`. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- From the printed precondition to "every entry is a real number": the conjunction over all indices being true
    gives the comparison `|x i| < +∞` at each index `i`. -/
theorem allReal_of_pre [Cert.Pre_finite_inputs.Facts] (x : FVec Ideal Cert.Pre_finite_inputs.S32x64x256x256 .f32)
    (h : Cert.Pre_finite_inputs.fn (F := Ideal) x = fun _ => 1#1) : ∀ i, ∃ r : ℝ, x i = (r : EReal) := by
  intro i
  have h0 := congrFun h (fun d => d.elim0)
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_f32_posInf] at hc
  refine real_of_abs_lt_top (x i) ?_
  by_contra hn
  simp [Ideal.cmp, hn] at hc

end Cert.Stats

end
-- ==== Proof.lean ====
/-
  The claim: the kernel program (two pipelined kernel calls around a short host stretch) standardises its input per
  channel exactly as the reference does, over the extended reals.

  Both return `(x - μ) / √(max (V / (n - 1)) ε + ε)` with `μ` the channel's mean and `n = 2²¹` the channel's size. The
  kernel program gets `V` from two running sums, `V = ∑ x² - (n · μ) · μ` (the sums accumulated block by block over a
  64-point grid in two scratch buffers); the reference computes `V = ∑ (x - μ)²` in a second pass. For an input of real
  numbers — which is what the precondition says — the two are equal, because `n · μ = ∑ x`.

  The frames: each program runs to its end from any memory, faults nowhere, and never writes its input array. For the
  kernel program (at either float instance) that is the run over its three segments; for the reference it is its run with
  the result dropped. The idealized kernel program is the printed one read at the extended reals: nothing was rewritten.
-/
import proofs.«111102_j85839216378453_1_alg».proof.Defs
import proofs.«111102_j85839216378453_1_alg».proof.Proof.Gen.Kernel
import proofs.«111102_j85839216378453_1_alg».proof.Proof.Gen.KernelIdeal
import proofs.«111102_j85839216378453_1_alg».proof.Proof.Gen.ReferenceIdeal
import proofs.«111102_j85839216378453_1_alg».proof.Proof.Gen.Pre_finite_inputs
import proofs.«111102_j85839216378453_1_alg».proof.Proof.KRun
import proofs.«111102_j85839216378453_1_alg».proof.Proof.KernelValue
import proofs.«111102_j85839216378453_1_alg».proof.Proof.RefValue
import proofs.«111102_j85839216378453_1_alg».proof.Proof.Algebra
import proofs.«111102_j85839216378453_1_alg».proof.Proof.Finite

noncomputable section

namespace Cert.Proof

open Idealize.ShloMosaic Idealize.SL.Sem

/-- The word-level program runs and leaves its input as launched. -/
theorem frame_kernel : @Cert.frame_Kernel Cert.Kernel.Gen.facts Cert.Pre_finite_inputs.Gen.facts :=
  fun m ρ _ => Cert.Kernel.Hand.frame m ρ

/-- So does the program read at the extended reals. -/
theorem frame_kernelIdeal : @Cert.frame_KernelIdeal Cert.KernelIdeal.Gen.facts Cert.Pre_finite_inputs.Gen.facts :=
  fun m ρ _ => Cert.KernelIdeal.Hand.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Hand.run m ρ)

/-- From memories that agree on the input, both programs end at the same array: the kernel program at the running-sums
    formula of the input, the reference at the two-pass formula of the same input, and the two formulas agree on an
    input of real numbers, which the precondition provides. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Stats.GK (m ((c.tc : Thread Cert.KernelIdeal.nD Cert.KernelIdeal.τ).loc Cert.KernelIdeal.main_arg0)),
    Cert.KernelIdeal.Hand.run_value m ρ, ?_⟩
  refine (θ_run Cert.ReferenceIdeal.defs _ _).mono (fun _ h c => ⟨(h c).1.trans ?_, (h c).2⟩)
    (Cert.ReferenceIdeal.Hand.run m' ρ')
  rw [hagree c]
  exact (Cert.Stats.GK_eq_GR _ (Cert.Stats.allReal_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
